-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part6 {F : FTy → Type} [FloatOps F] (main_arg20 : IVec S1000000 32) (main_arg21 : IVec S1000000 32) (main_v98 : IVec S_ 1) (main_v101 : IVec S_ 1) : IVec S_ 1 :=
  let main_v102 : IVec S_ 1 := andi main_v98 main_v101
  let main_c_40 : IVec S_ 32 := constantI S_ 32 100000#32
  let main_v103 : IVec S1000000 32 := broadcastInDim S1000000 ![] bcast_S_S1000000 main_c_40
  let main_v104 : IVec S1000000 1 := cmpi .slt main_arg20 main_v103
  let main_c_41 : IVec S_ 1 := constantI S_ 1 1#1
  let main_v105 : IVec S_ 1 := (fun x v => Host.reduce IntOp.andi x v reducesTo_S1000000_S_d0 h_S_) main_v104 main_c_41
  let main_v106 : IVec S_ 1 := andi main_v102 main_v105
  let main_c_42 : IVec S_ 32 := constantI S_ 32 0#32
  let main_v107 : IVec S1000000 32 := broadcastInDim S1000000 ![] bcast_S_S1000000 main_c_42
  let main_v108 : IVec S1000000 1 := cmpi .sge main_arg21 main_v107
  let main_c_43 : IVec S_ 1 := constantI S_ 1 1#1
  let main_v109 : IVec S_ 1 := (fun x v => Host.reduce IntOp.andi x v reducesTo_S1000000_S_d0 h_S_) main_v108 main_c_43
  let main_v110 : IVec S_ 1 := andi main_v106 main_v109
  let main_c_44 : IVec S_ 32 := constantI S_ 32 300000#32
  let main_v111 : IVec S1000000 32 := broadcastInDim S1000000 ![] bcast_S_S1000000 main_c_44
  let main_v112 : IVec S1000000 1 := cmpi .slt main_arg21 main_v111
  let main_c_45 : IVec S_ 1 := constantI S_ 1 1#1
  let main_v113 : IVec S_ 1 := (fun x v => Host.reduce IntOp.andi x v reducesTo_S1000000_S_d0 h_S_) main_v112 main_c_45
  let main_v114 : IVec S_ 1 := andi main_v110 main_v113
  main_v114

def fn_part5 {F : FTy → Type} [FloatOps F] (main_arg18 : FVec F S64x1 .f32) (main_arg19 : FVec F S1 .f32) (main_arg20 : IVec S1000000 32) (main_arg21 : IVec S1000000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S1000000 32 := broadcastInDim S1000000 ![] bcast_S_S1000000 main_c_38
  let main_v100 : IVec S1000000 1 := cmpi .sge main_arg20 main_v99
  let main_c_39 : IVec S_ 1 := constantI S_ 1 1#1
  let main_v101 : IVec S_ 1 := (fun x v => Host.reduce IntOp.andi x v reducesTo_S1000000_S_d0 h_S_) main_v100 main_c_39
  fn_part6 (F := F) main_arg20 main_arg21 main_v98 main_v101

def fn_part4 {F : FTy → Type} [FloatOps F] (main_arg14 : FVec F S64 .f32) (main_arg15 : FVec F S64x64 .f32) (main_arg16 : FVec F S64x64 .f32) (main_arg17 : FVec F S64 .f32) (main_arg18 : FVec F S64x1 .f32) (main_arg19 : FVec F S1 .f32) (main_arg20 : IVec S1000000 32) (main_arg21 : IVec S1000000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x1 .f32) (main_arg19 : FVec F S1 .f32) (main_arg20 : IVec S1000000 32) (main_arg21 : IVec S1000000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x1 .f32) (main_arg19 : FVec F S1 .f32) (main_arg20 : IVec S1000000 32) (main_arg21 : IVec S1000000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x1 .f32) (main_arg19 : FVec F S1 .f32) (main_arg20 : IVec S1000000 32) (main_arg21 : IVec S1000000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S300000x64 .f32) (main_arg2 : FVec F S128x64 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x1 .f32) (main_arg19 : FVec F S1 .f32) (main_arg20 : IVec S1000000 32) (main_arg21 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1000000 : Shape := ⟨1, ![1000000]⟩
abbrev S_ : Shape := ⟨0, ![]⟩
abbrev S300000 : Shape := ⟨1, ![300000]⟩
abbrev S1000000x1 : Shape := ⟨2, ![1000000, 1]⟩
abbrev S300000x1 : Shape := ⟨2, ![300000, 1]⟩
abbrev S100000 : Shape := ⟨1, ![100000]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S1x1 : Shape := ⟨2, ![1, 1]⟩
abbrev S1000000x64 : Shape := ⟨2, ![1000000, 64]⟩
abbrev S15000x64 : Shape := ⟨2, ![15000, 64]⟩
abbrev S15000x1 : Shape := ⟨2, ![15000, 1]⟩
abbrev S10000x1 : Shape := ⟨2, ![10000, 1]⟩

abbrev nBuf : Space → Nat
  | .hbm => 127
  | .vmem => 43
  | .smem => 0
  | _ => 0

abbrev bufTy : (tb : Table) → Fin (tcTables nBuf tb) → BufTy
  | .hbm, ⟨0, _⟩ => ⟨S100000x128, .f32⟩
  | .hbm, ⟨1, _⟩ => ⟨S300000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S1000000, .i32⟩
  | .hbm, ⟨21, _⟩ => ⟨S1000000, .i32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S300000, .f32⟩
  | .hbm, ⟨26, _⟩ => ⟨S1000000x1, .i32⟩
  | .hbm, ⟨27, _⟩ => ⟨S300000, .f32⟩
  | .hbm, ⟨28, _⟩ => ⟨S_, .f32⟩
  | .hbm, ⟨29, _⟩ => ⟨S_, .f32⟩
  | .hbm, ⟨30, _⟩ => ⟨S300000, .f32⟩
  | .hbm, ⟨31, _⟩ => ⟨S300000, .f32⟩
  | .hbm, ⟨32, _⟩ => ⟨S300000x1, .f32⟩
  | .hbm, ⟨33, _⟩ => ⟨S_, .f32⟩
  | .hbm, ⟨34, _⟩ => ⟨S100000, .f32⟩
  | .hbm, ⟨35, _⟩ => ⟨S1000000x1, .i32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1, .i32⟩
  | .hbm, ⟨52, _⟩ => ⟨S_, .i32⟩
  | .hbm, ⟨53, _⟩ => ⟨S1000000x1, .i32⟩
  | .hbm, ⟨54, _⟩ => ⟨S1000000x1, .i1⟩
  | .hbm, ⟨55, _⟩ => ⟨S1x1, .i32⟩
  | .hbm, ⟨56, _⟩ => ⟨S1000000x1, .i32⟩
  | .hbm, ⟨57, _⟩ => ⟨S1000000x1, .i1⟩
  | .hbm, ⟨58, _⟩ => ⟨S1000000x1, .i1⟩
  | .hbm, ⟨59, _⟩ => ⟨S_, .i1⟩
  | .hbm, ⟨60, _⟩ => ⟨S1000000, .i1⟩
  | .hbm, ⟨61, _⟩ => ⟨S1000000x64, .f32⟩
  | .hbm, ⟨62, _⟩ => ⟨S1000000x64, .i1⟩
  | .hbm, ⟨63, _⟩ => ⟨S_, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S300000x64, .f32⟩
  | .hbm, ⟨68, _⟩ => ⟨S1000000x1, .i32⟩
  | .hbm, ⟨69, _⟩ => ⟨S300000x64, .f32⟩
  | .hbm, ⟨70, _⟩ => ⟨S300000x64, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1, .i32⟩
  | .hbm, ⟨80, _⟩ => ⟨S_, .i32⟩
  | .hbm, ⟨81, _⟩ => ⟨S1000000x1, .i32⟩
  | .hbm, ⟨82, _⟩ => ⟨S1000000x1, .i1⟩
  | .hbm, ⟨83, _⟩ => ⟨S1x1, .i32⟩
  | .hbm, ⟨84, _⟩ => ⟨S1000000x1, .i32⟩
  | .hbm, ⟨85, _⟩ => ⟨S1000000x1, .i1⟩
  | .hbm, ⟨86, _⟩ => ⟨S1000000x1, .i1⟩
  | .hbm, ⟨87, _⟩ => ⟨S_, .i1⟩
  | .hbm, ⟨88, _⟩ => ⟨S1000000, .i1⟩
  | .hbm, ⟨89, _⟩ => ⟨S1000000x64, .f32⟩
  | .hbm, ⟨90, _⟩ => ⟨S1000000x64, .i1⟩
  | .hbm, ⟨91, _⟩ => ⟨S_, .f32⟩
  | .hbm, ⟨92, _⟩ => ⟨S1000000x64, .f32⟩
  | .hbm, ⟨93, _⟩ => ⟨S1000000x64, .f32⟩
  | .hbm, ⟨94, _⟩ => ⟨S_, .f32⟩
  | .hbm, ⟨95, _⟩ => ⟨S100000x64, .f32⟩
  | .hbm, ⟨96, _⟩ => ⟨S1000000x1, .i32⟩
  | .hbm, ⟨97, _⟩ => ⟨S100000x64, .f32⟩
  | .hbm, ⟨98, _⟩ => ⟨S100000x64, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1, .i32⟩
  | .hbm, ⟨108, _⟩ => ⟨S_, .i32⟩
  | .hbm, ⟨109, _⟩ => ⟨S1000000x1, .i32⟩
  | .hbm, ⟨110, _⟩ => ⟨S1000000x1, .i1⟩
  | .hbm, ⟨111, _⟩ => ⟨S1x1, .i32⟩
  | .hbm, ⟨112, _⟩ => ⟨S1000000x1, .i32⟩
  | .hbm, ⟨113, _⟩ => ⟨S1000000x1, .i1⟩
  | .hbm, ⟨114, _⟩ => ⟨S1000000x1, .i1⟩
  | .hbm, ⟨115, _⟩ => ⟨S_, .i1⟩
  | .hbm, ⟨116, _⟩ => ⟨S1000000, .i1⟩
  | .hbm, ⟨117, _⟩ => ⟨S1000000x64, .f32⟩
  | .hbm, ⟨118, _⟩ => ⟨S1000000x64, .i1⟩
  | .hbm, ⟨119, _⟩ => ⟨S_, .f32⟩
  | .hbm, ⟨120, _⟩ => ⟨S1000000x64, .f32⟩
  | .hbm, ⟨121, _⟩ => ⟨S1000000x64, .f32⟩
  | .hbm, ⟨122, _⟩ => ⟨S_, .f32⟩
  | .hbm, ⟨123, _⟩ => ⟨S300000x64, .f32⟩
  | .hbm, ⟨124, _⟩ => ⟨S1000000x1, .i32⟩
  | .hbm, ⟨125, _⟩ => ⟨S300000x64, .f32⟩
  | .hbm, ⟨126, _⟩ => ⟨S300000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S15000x64, .f32⟩
  | .local _ .vmem, ⟨7, _⟩ => ⟨S15000x64, .f32⟩
  | .local _ .vmem, ⟨8, _⟩ => ⟨S15000x64, .f32⟩
  | .local _ .vmem, ⟨9, _⟩ => ⟨S15000x64, .f32⟩
  | .local _ .vmem, ⟨10, _⟩ => ⟨S15000x1, .f32⟩
  | .local _ .vmem, ⟨11, _⟩ => ⟨S15000x1, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S15000x64, .f32⟩
  | .local _ .vmem, ⟨16, _⟩ => ⟨S15000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x1, .f32⟩
  | .local _ .vmem, ⟨22, _⟩ => ⟨S10000x1, .f32⟩
  | .local _ .vmem, ⟨23, _⟩ => ⟨S64x64, .f32⟩
  | .local _ .vmem, ⟨24, _⟩ => ⟨S64, .f32⟩
  | .local _ .vmem, ⟨25, _⟩ => ⟨S64x64, .f32⟩
  | .local _ .vmem, ⟨26, _⟩ => ⟨S10000x64, .f32⟩
  | .local _ .vmem, ⟨27, _⟩ => ⟨S10000x64, .f32⟩
  | .local _ .vmem, ⟨28, _⟩ => ⟨S15000x64, .f32⟩
  | .local _ .vmem, ⟨29, _⟩ => ⟨S15000x64, .f32⟩
  | .local _ .vmem, ⟨30, _⟩ => ⟨S15000x64, .f32⟩
  | .local _ .vmem, ⟨31, _⟩ => ⟨S15000x64, .f32⟩
  | .local _ .vmem, ⟨32, _⟩ => ⟨S15000x1, .f32⟩
  | .local _ .vmem, ⟨33, _⟩ => ⟨S15000x1, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64x64, .f32⟩
  | .local _ .vmem, ⟨38, _⟩ => ⟨S64, .f32⟩
  | .local _ .vmem, ⟨39, _⟩ => ⟨S64x1, .f32⟩
  | .local _ .vmem, ⟨40, _⟩ => ⟨S1, .f32⟩
  | .local _ .vmem, ⟨41, _⟩ => ⟨S15000x1, .f32⟩
  | .local _ .vmem, ⟨42, _⟩ => ⟨S15000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_cst : Ref sig .tc := ⟨.hbm, 63, rfl⟩
abbrev main_call2_v15 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v17 : Ref sig .tc := ⟨.hbm, 93, rfl⟩
abbrev main_cst_5 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v22 : Ref sig .tc := ⟨.hbm, 121, rfl⟩
abbrev main_cst_6 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg10_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem10_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S15000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S15000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S15000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S15000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S15000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S15000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S15000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S15000x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S1000000 : S_.BroadcastsInDim S1000000 (![] : Fin 0 → Fin S1000000.rank)
  bcast_S_S300000 : S_.BroadcastsInDim S300000 (![] : Fin 0 → Fin S300000.rank)
  bcast_S1000000_S1000000x1_0 : S1000000.BroadcastsInDim S1000000x1 (![0] : Fin 1 → Fin S1000000x1.rank)
  bcast_S300000_S300000x1_0 : S300000.BroadcastsInDim S300000x1 (![0] : Fin 1 → Fin S300000x1.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S300000x64 : S_.BroadcastsInDim S300000x64 (![] : Fin 0 → Fin S300000x64.rank)
  inb_S15000x64_S15000x64_0_0 : ∀ a, (![0, 0] : Fin 2 → Nat) a + S15000x64.size a ≤ S15000x64.size a
  h_S15000x64 : 0 < S15000x64.numel
  shapeCasts_S15000x64_S15000x64 : S15000x64.ShapeCasts S15000x64
  inb_S15000x1_S15000x1_0_0 : ∀ a, (![0, 0] : Fin 2 → Nat) a + S15000x1.size a ≤ S15000x1.size a
  h_S15000x1 : 0 < S15000x1.numel
  shapeCasts_S15000x1_S15000x1 : S15000x1.ShapeCasts S15000x1
  broadcasts_S15000x1_S15000x64 : S15000x1.Broadcasts S15000x64
  inb_S64x64_S64x64_0_0 : ∀ a, (![0, 0] : Fin 2 → Nat) a + S64x64.size a ≤ S64x64.size a
  h_S64x64 : 0 < S64x64.numel
  broadcasts_S1x64_S15000x64 : S1x64.Broadcasts S15000x64
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S15000x1 : S1x1.Broadcasts S15000x1
  scatter_S300000_S1000000x1_S1000000_n_0_0_1_wf : ScatterDims.WF S300000 S1000000x1 S1000000 [] [0] [0] 1
  scatter_S100000_S1000000x1_S1000000_n_0_0_1_wf : ScatterDims.WF S100000 S1000000x1 S1000000 [] [0] [0] 1
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S300000x64_S1000000x1_S1000000x64_1_0_0_1_wf : ScatterDims.WF S300000x64 S1000000x1 S1000000x64 [1] [0] [0] 1
  dot_S15000x64_S64x64_S15000x64_1_0_0_1_n_n_wf : DotDims.WF S15000x64 S64x64 S15000x64 [1] [0] [0] [1] [] []
  gather_S300000x64_S1000000x1_S1000000x64_1_0_n_n_0_1_164_wf : GatherDims.WF S300000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S15000x64_S64x1_S15000x1_1_0_0_1_n_n_wf : DotDims.WF S15000x64 S64x1 S15000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S15000x64.size a ≤ S300000x64.size a
  hwx1_0 : ∀ i : grid1.Coords, EltTy.bits .f32 = 32 ∨ (Rect.block (s := S300000x64) S15000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S15000x64.size a ≤ S300000x64.size a
  hwx1_1 : ∀ i : grid1.Coords, EltTy.bits .f32 = 32 ∨ (Rect.block (s := S300000x64) S15000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S15000x1.size a ≤ S300000x1.size a
  hwx1_2 : ∀ i : grid1.Coords, EltTy.bits .f32 = 32 ∨ (Rect.block (s := S300000x1) S15000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S15000x64.size a ≤ S300000x64.size a
  hwx1_6 : ∀ i : grid1.Coords, EltTy.bits .f32 = 32 ∨ (Rect.block (s := S300000x64) S15000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S15000x64.size a ≤ S300000x64.size a
  hwx3_0 : ∀ i : grid3.Coords, EltTy.bits .f32 = 32 ∨ (Rect.block (s := S300000x64) S15000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S15000x64.size a ≤ S300000x64.size a
  hwx3_1 : ∀ i : grid3.Coords, EltTy.bits .f32 = 32 ∨ (Rect.block (s := S300000x64) S15000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S15000x1.size a ≤ S300000x1.size a
  hwx3_2 : ∀ i : grid3.Coords, EltTy.bits .f32 = 32 ∨ (Rect.block (s := S300000x1) S15000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x1.size a ≤ S64x1.size a
  hwx3_8 : ∀ i : grid3.Coords, EltTy.bits .f32 = 32 ∨ (Rect.block (s := S64x1) S64x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1.size a ≤ S1.size a
  hwx3_9 : ∀ i : grid3.Coords, EltTy.bits .f32 = 32 ∨ (Rect.block (s := S1) S1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S15000x1.size a ≤ S300000x1.size a
  hwx3_10 : ∀ i : grid3.Coords, EltTy.bits .f32 = 32 ∨ (Rect.block (s := S300000x1) S15000x1.size (cc3_transform_10 i) (hinb3_10 i)).WholeWords (EltTy.packing .f32)

variable [Facts₀]

def scatter_S300000_S1000000x1_S1000000_n_0_0_1 : ScatterDims S300000 S1000000x1 S1000000 where
  updateWindowDims := []
  insertedWindowDims := [0]
  scatterDimsToOperandDims := [0]
  indexVectorDim := 1
  wf := scatter_S300000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def dot_S15000x64_S64x64_S15000x64_1_0_0_1_n_n : DotDims S15000x64 S64x64 S15000x64 where
  lhsContracting := [1]
  rhsContracting := [0]
  lhsNonContracting := [0]
  rhsNonContracting := [1]
  lhsBatch := []
  rhsBatch := []
  wf := dot_S15000x64_S64x64_S15000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S15000x64_S64x1_S15000x1_1_0_0_1_n_n : DotDims S15000x64 S64x1 S15000x1 where
  lhsContracting := [1]
  rhsContracting := [0]
  lhsNonContracting := [0]
  rhsNonContracting := [1]
  lhsBatch := []
  rhsBatch := []
  wf := dot_S15000x64_S64x1_S15000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S15000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S15000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S15000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S15000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v21) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v25) S15000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S15000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S15000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S64x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg19) S1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v26) S15000x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S300000x64 : Shape := ⟨2, ![300000, 64]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1000000 : Shape := ⟨1, ![1000000]⟩
abbrev S_ : Shape := ⟨0, ![]⟩
abbrev S300000 : Shape := ⟨1, ![300000]⟩
abbrev S1000000x1 : Shape := ⟨2, ![1000000, 1]⟩
abbrev S300000x1 : Shape := ⟨2, ![300000, 1]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1000000x64 : Shape := ⟨2, ![1000000, 64]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S300000x64, .f32⟩
  | 2 => ⟨S128x64, .f32⟩
  | 3 => ⟨S64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x1, .f32⟩
  | 19 => ⟨S1, .f32⟩
  | 20 => ⟨S1000000, .i32⟩
  | 21 => ⟨S1000000, .i32⟩
  | 22 => ⟨S_, .f32⟩
  | 23 => ⟨S1000000, .f32⟩
  | 24 => ⟨S_, .f32⟩
  | 25 => ⟨S300000, .f32⟩
  | 26 => ⟨S1000000x1, .i32⟩
  | 27 => ⟨S300000, .f32⟩
  | 28 => ⟨S_, .f32⟩
  | 29 => ⟨S_, .f32⟩
  | 30 => ⟨S300000, .f32⟩
  | 31 => ⟨S300000, .f32⟩
  | 32 => ⟨S300000x1, .f32⟩
  | 33 => ⟨S_, .f32⟩
  | 34 => ⟨S100000, .f32⟩
  | 35 => ⟨S1000000x1, .i32⟩
  | 36 => ⟨S100000, .f32⟩
  | 37 => ⟨S_, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S1x64, .f32⟩
  | 44 => ⟨S100000x64, .f32⟩
  | 45 => ⟨S100000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S_, .f32⟩
  | 56 => ⟨S300000x64, .f32⟩
  | 57 => ⟨S1000000x1, .i32⟩
  | 58 => ⟨S300000x64, .f32⟩
  | 59 => ⟨S300000x64, .f32⟩
  | 60 => ⟨S300000x64, .f32⟩
  | 61 => ⟨S300000x64, .f32⟩
  | 62 => ⟨S1x64, .f32⟩
  | 63 => ⟨S300000x64, .f32⟩
  | 64 => ⟨S300000x64, .f32⟩
  | 65 => ⟨S300000x64, .f32⟩
  | 66 => ⟨S300000x64, .f32⟩
  | 67 => ⟨S_, .f32⟩
  | 68 => ⟨S300000x64, .f32⟩
  | 69 => ⟨S300000x64, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x64, .f32⟩
  | 79 => ⟨S_, .f32⟩
  | 80 => ⟨S100000x64, .f32⟩
  | 81 => ⟨S1000000x1, .i32⟩
  | 82 => ⟨S100000x64, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S_, .f32⟩
  | 104 => ⟨S300000x64, .f32⟩
  | 105 => ⟨S1000000x1, .i32⟩
  | 106 => ⟨S300000x64, .f32⟩
  | 107 => ⟨S300000x64, .f32⟩
  | 108 => ⟨S300000x64, .f32⟩
  | 109 => ⟨S300000x64, .f32⟩
  | 110 => ⟨S1x64, .f32⟩
  | 111 => ⟨S300000x64, .f32⟩
  | 112 => ⟨S300000x64, .f32⟩
  | 113 => ⟨S300000x64, .f32⟩
  | 114 => ⟨S300000x64, .f32⟩
  | 115 => ⟨S_, .f32⟩
  | 116 => ⟨S300000x64, .f32⟩
  | 117 => ⟨S300000x64, .f32⟩
  | 118 => ⟨S300000x64, .f32⟩
  | 119 => ⟨S1x64, .f32⟩
  | 120 => ⟨S300000x64, .f32⟩
  | 121 => ⟨S300000x64, .f32⟩
  | 122 => ⟨S_, .f32⟩
  | 123 => ⟨S300000x64, .f32⟩
  | 124 => ⟨S300000x64, .f32⟩
  | 125 => ⟨S300000x1, .f32⟩
  | 126 => ⟨S1x1, .f32⟩
  | 127 => ⟨S300000x1, .f32⟩
  | _ => ⟨S100000x128, .f32⟩

abbrev hbmTy0_1 (i : Nat) : BufTy := match i % 128 with
  | 0 => ⟨S300000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v4 : Ref sig .tc := ⟨.hbm, 31, rfl⟩
abbrev main_v5 : Ref sig .tc := ⟨.hbm, 32, rfl⟩
abbrev main_cst_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call2_cst : Ref sig .tc := ⟨.hbm, 67, rfl⟩
abbrev main_call2_v0 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_8 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call3_cst : Ref sig .tc := ⟨.hbm, 91, rfl⟩
abbrev main_call3_v0 : Ref sig .tc := ⟨.hbm, 92, rfl⟩
abbrev main_v52 : Ref sig .tc := ⟨.hbm, 93, rfl⟩
abbrev main_c_9 : Ref sig .tc := ⟨.hbm, 94, rfl⟩
abbrev main_v53 : Ref sig .tc := ⟨.hbm, 95, rfl⟩
abbrev main_v54 : Ref sig .tc := ⟨.hbm, 96, rfl⟩
abbrev main_c_10 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst_11 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_call4_cst : Ref sig .tc := ⟨.hbm, 115, rfl⟩
abbrev main_call4_v0 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call5_cst : Ref sig .tc := ⟨.hbm, 122, rfl⟩
abbrev main_call5_v0 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S300000 : S_.BroadcastsInDim S300000 (![] : Fin 0 → Fin S300000.rank)
  bcast_S1000000_S1000000x1_0 : S1000000.BroadcastsInDim S1000000x1 (![0] : Fin 1 → Fin S1000000x1.rank)
  bcast_S300000_S300000x1_0 : S300000.BroadcastsInDim S300000x1 (![0] : Fin 1 → Fin S300000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S300000x64 : S_.BroadcastsInDim S300000x64 (![] : Fin 0 → Fin S300000x64.rank)
  bcast_S300000x1_S300000x64_0_1 : S300000x1.BroadcastsInDim S300000x64 (![0, 1] : Fin 2 → Fin S300000x64.rank)
  bcast_S1x64_S300000x64_0_1 : S1x64.BroadcastsInDim S300000x64 (![0, 1] : Fin 2 → Fin S300000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  scatter_S300000_S1000000x1_S1000000_n_0_0_1_wf : ScatterDims.WF S300000 S1000000x1 S1000000 [] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S300000x64_S1000000x1_S1000000x64_1_0_0_1_wf : ScatterDims.WF S300000x64 S1000000x1 S1000000x64 [1] [0] [0] 1
  dot_S300000x64_S64x64_S300000x64_1_0_0_1_n_n_wf : DotDims.WF S300000x64 S64x64 S300000x64 [1] [0] [0] [1] [] []
  gather_S300000x64_S1000000x1_S1000000x64_1_0_n_n_0_1_164_wf : GatherDims.WF S300000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S300000x64_S64x1_S300000x1_1_0_0_1_n_n_wf : DotDims.WF S300000x64 S64x1 S300000x1 [1] [0] [0] [1] [] []

variable [Facts₀]

def scatter_S300000_S1000000x1_S1000000_n_0_0_1 : ScatterDims S300000 S1000000x1 S1000000 where
  updateWindowDims := []
  insertedWindowDims := [0]
  scatterDimsToOperandDims := [0]
  indexVectorDim := 1
  wf := scatter_S300000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S300000x64_S1000000x1_S1000000x64_1_0_0_1 : ScatterDims S300000x64 S1000000x1 S1000000x64 where
  updateWindowDims := [1]
  insertedWindowDims := [0]
  scatterDimsToOperandDims := [0]
  indexVectorDim := 1
  wf := scatter_S300000x64_S1000000x1_S1000000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf
def gather_S300000x64_S1000000x1_S1000000x64_1_0_n_n_0_1_164 : GatherDims S300000x64 S1000000x1 S1000000x64 where
  offsetDims := [1]
  collapsedSliceDims := [0]
  operandBatchingDims := []
  startIndicesBatchingDims := []
  startIndexMap := [0]
  indexVectorDim := 1
  sliceSizes := ![1, 64]
  wf := gather_S300000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S300000x64_S64x1_S300000x1_1_0_0_1_n_n : DotDims S300000x64 S64x1 S300000x1 where
  lhsContracting := [1]
  rhsContracting := [0]
  lhsNonContracting := [0]
  rhsNonContracting := [1]
  lhsBatch := []
  rhsBatch := []
  wf := dot_S300000x64_S64x1_S300000x1_1_0_0_1_n_n_wf

class Facts : Prop extends Facts₀ where

variable [Facts]
-- ==== Proof.PreFacts.lean ====
/-
  What the precondition says of the two edge-index inputs: every source index is an author id `0 ≤ s < 100000` and every
  destination index a paper id `0 ≤ d < 300000`.  The precondition is one conjunction; its last four conjuncts are the four
  comparisons, each reduced by `and` over all edges, so each holds at every edge.
-/
import proofs.«419581_j87247965651651_3_alg».proof.Pre_finite_inputs
import Idealize.ShloMosaic.Lib.ReduceAll
import Idealize.ShloMosaic.Lib.ValueIdx

noncomputable section

namespace Cert.PreFacts

open Idealize.ShloMosaic Idealize.ShloMosaic.ValueIdx Cert.Pre_finite_inputs

instance : Subsingleton S_.Idx := ⟨fun a b => funext fun d => d.elim0⟩

/-- A signed `0 ≤ x` test that came out 1. -/
theorem nonneg_of_sge (x : BitVec 32) (h : IntOp.cmpi .sge x 0#32 = 1#1) : 0 ≤ x.toInt := by
  have h' : BitVec.ofBool ((0#32).sle x) = 1#1 := h
  have : (0#32).sle x = true := by
    cases hb : (0#32).sle x
    · rw [hb] at h'; exact absurd h' (by decide)
    · rfl
  rw [BitVec.sle_eq_decide] at this
  simpa using this

/-- A signed `x < n` test that came out 1. -/
theorem lt_of_slt (x n : BitVec 32) (h : IntOp.cmpi .slt x n = 1#1) : x.toInt < n.toInt := by
  have h' : BitVec.ofBool (x.slt n) = 1#1 := h
  have : x.slt n = true := by
    cases hb : x.slt n
    · rw [hb] at h'; exact absurd h' (by decide)
    · rfl
  rw [BitVec.slt_eq_decide] at this
  simpa using this

variable [Cert.Pre_finite_inputs.Facts] {F : FTy → Type} [FloatOps F]

/-- Under the precondition every edge's source is an author id and its destination a paper id. -/
theorem ranges (a0 : FVec F S100000x128 .f32) (a1 : FVec F S300000x64 .f32) (a2 : FVec F S128x64 .f32) (a3 : FVec F S64 .f32)
    (a4 : FVec F S64x64 .f32) (a5 : FVec F S64 .f32) (a6 a7 : FVec F S64x64 .f32) (a8 : FVec F S64 .f32) (a9 a10 : FVec F S64x64 .f32)
    (a11 : FVec F S64 .f32) (a12 a13 : FVec F S64x64 .f32) (a14 : FVec F S64 .f32) (a15 a16 : FVec F S64x64 .f32) (a17 : FVec F S64 .f32)
    (a18 : FVec F S64x1 .f32) (a19 : FVec F S1 .f32) (a20 a21 : IVec S1000000 32)
    (h : fn (F := F) a0 a1 a2 a3 a4 a5 a6 a7 a8 a9 a10 a11 a12 a13 a14 a15 a16 a17 a18 a19 a20 a21 = fun _ => 1#1) :
    (∀ e, 0 ≤ (a20 e).toInt ∧ (a20 e).toInt ≤ (99999#32 : BitVec 32).toInt)
    ∧ (∀ e, 0 ≤ (a21 e).toInt ∧ (a21 e).toInt ≤ (299999#32 : BitVec 32).toInt) := by
  have h0 := congrFun h ix0
  dsimp only [fn, fn_part1, fn_part2, fn_part3, fn_part4, fn_part5, fn_part6] at h0
  obtain ⟨h1, hd1⟩ := IntOp.andi_eq_one.1 h0
  obtain ⟨h2, hd0⟩ := IntOp.andi_eq_one.1 h1
  obtain ⟨h3, hs1⟩ := IntOp.andi_eq_one.1 h2
  obtain ⟨-, hs0⟩ := IntOp.andi_eq_one.1 h3
  have s0 := Host.reduce_andi_all _ _ _ _ _ hs0
  have s1 := Host.reduce_andi_all _ _ _ _ _ hs1
  have d0 := Host.reduce_andi_all _ _ _ _ _ hd0
  have d1 := Host.reduce_andi_all _ _ _ _ _ hd1
  refine ⟨fun e => ⟨nonneg_of_sge _ (s0 e), ?_⟩, fun e => ⟨nonneg_of_sge _ (d0 e), ?_⟩⟩
  · have := lt_of_slt _ _ (s1 e)
    have e1 : (100000#32 : BitVec 32).toInt = 100000 := by decide
    have e2 : (99999#32 : BitVec 32).toInt = 99999 := by decide
    rw [e2]
    have : (a20 e).toInt < (100000#32 : BitVec 32).toInt := this
    rw [e1] at this; omega
  · have := lt_of_slt _ _ (d1 e)
    have e1 : (300000#32 : BitVec 32).toInt = 300000 := by decide
    have e2 : (299999#32 : BitVec 32).toInt = 299999 := by decide
    rw [e2]
    have : (a21 e).toInt < (300000#32 : BitVec 32).toInt := this
    rw [e1] at this; omega

end Cert.PreFacts

end
-- ==== Proof.Spec.lean ====
/-
  The mathematics of the two-layer bipartite message-passing network, as whole-array functions on the extended reals.

  Every dense stage of the network acts row by row.  For a row `r` and an output column `q`:

  * the author projection is `(∑ k, x[r,k] · W[k,q]) + b[q]`;
  * a mean-aggregation layer takes the summed neighbour features `agg`, the neighbour count `cnt` (a column),
    the node's own features `xdst`, and returns
    `max ((∑ k, (agg[r,k] / cnt[r,0]) · Wl[k,q]) + bl[q] + ∑ k, xdst[r,k] · Wr[k,q]) 0`;
  * the output head applies one more such hidden layer `max ((∑ k, h[r,k] · W1[k,q]) + b1[q]) 0` and the final
    linear map `(∑ k, ·[r,k] · W2[k,0]) + b2[0]`.

  The zero under `max` is kept as the float word both programs print; nothing here evaluates it.
-/
import Idealize.ShloMosaic.PureOps.Ideal
import Idealize.ShloMosaic.Lib.ValueIdx

noncomputable section

open scoped BigOperators

namespace Cert.Spec

open Idealize.ShloMosaic Idealize.ShloMosaic.ValueIdx

/-- The float word `0.0` read on the extended reals. -/
abbrev z32 : EReal := Ideal.ofBits .f32 0x00000000#32

/-- A dense layer with bias: row `r` of `x` against column `q` of `W`, plus `b[q]`. -/
def affine {n K M : Nat} (x : (⟨2, ![n, K]⟩ : Shape).Idx → EReal) (W : (⟨2, ![K, M]⟩ : Shape).Idx → EReal)
    (b : (⟨1, ![M]⟩ : Shape).Idx → EReal) : (⟨2, ![n, M]⟩ : Shape).Idx → EReal :=
  fun i => (∑ k : Fin K, x (ix2 (i 0) k) * W (ix2 k (i 1))) + b (ix1 (i 1))

/-- The mean-aggregation layer: the summed neighbour rows divided by the neighbour count, through `Wl` with bias
    `bl`, plus the node's own row through `Wr`, clamped below at zero. -/
def sage {n : Nat} (agg xdst : (⟨2, ![n, 64]⟩ : Shape).Idx → EReal) (cnt : (⟨2, ![n, 1]⟩ : Shape).Idx → EReal)
    (Wl : (⟨2, ![64, 64]⟩ : Shape).Idx → EReal) (bl : (⟨1, ![64]⟩ : Shape).Idx → EReal)
    (Wr : (⟨2, ![64, 64]⟩ : Shape).Idx → EReal) : (⟨2, ![n, 64]⟩ : Shape).Idx → EReal :=
  fun i => max (((∑ k : Fin 64, Ideal.div (agg (ix2 (i 0) k)) (cnt (ix2 (i 0) 0)) * Wl (ix2 k (i 1))) + bl (ix1 (i 1)))
      + ∑ k : Fin 64, xdst (ix2 (i 0) k) * Wr (ix2 k (i 1))) z32

/-- A hidden layer: `affine` clamped below at zero. -/
def hidden {n : Nat} (h : (⟨2, ![n, 64]⟩ : Shape).Idx → EReal) (W : (⟨2, ![64, 64]⟩ : Shape).Idx → EReal)
    (b : (⟨1, ![64]⟩ : Shape).Idx → EReal) : (⟨2, ![n, 64]⟩ : Shape).Idx → EReal :=
  fun i => max (affine h W b i) z32

/-- The output head on the second paper layer: a mean-aggregation layer, a hidden layer, the final linear map. -/
def head {n : Nat} (agg xdst : (⟨2, ![n, 64]⟩ : Shape).Idx → EReal) (cnt : (⟨2, ![n, 1]⟩ : Shape).Idx → EReal)
    (Wl : (⟨2, ![64, 64]⟩ : Shape).Idx → EReal) (bl : (⟨1, ![64]⟩ : Shape).Idx → EReal)
    (Wr : (⟨2, ![64, 64]⟩ : Shape).Idx → EReal) (W1 : (⟨2, ![64, 64]⟩ : Shape).Idx → EReal)
    (b1 : (⟨1, ![64]⟩ : Shape).Idx → EReal) (W2 : (⟨2, ![64, 1]⟩ : Shape).Idx → EReal)
    (b2 : (⟨1, ![1]⟩ : Shape).Idx → EReal) : (⟨2, ![n, 1]⟩ : Shape).Idx → EReal :=
  affine (hidden (sage agg xdst cnt Wl bl Wr) W1 b1) W2 b2

end Cert.Spec

end
-- ==== Proof.Take.lean ====
/-
  A row gather whose out-of-range rows are filled with a fixed value, when no row is out of range.

  The filled gather computes, for every edge `e`, the index `j e` (the given index, with the table's length added when
  it is negative), the test `0 ≤ j e ≤ hi`, the gathered row at `j e`, and keeps the gathered row where the test holds and
  the fill elsewhere.  When every index already lies in `0 … hi` the test holds at every edge, so the result is the plain
  gather at `j`.
-/
import Idealize.ShloMosaic.Lib.ReduceAll
import Idealize.ShloMosaic.Lib.ValueIdx

noncomputable section

namespace Cert.Take

open Idealize.ShloMosaic Idealize.ShloMosaic.ValueIdx

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    refine foldl_andi_one f l _ ?_ (fun n hn => h n (List.mem_cons_of_mem _ hn))
    rw [hi, h a (List.mem_cons_self ..)]
    decide

/-- An `and`-reduction from 1 of an array of ones is 1 at every result index. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun n _ => hx n)

/-- One edge: a non-negative word at most `hi` passes the range test after the negative-index adjustment, whatever
    length `nW` the adjustment would add. -/
theorem elem_in_range (x nW hi : BitVec 32) (h0 : 0 ≤ x.toInt) (h1 : x.toInt ≤ hi.toInt) :
    IntOp.andi (IntOp.cmpi .sge (Scalar.select (IntOp.cmpi .slt x 0#32) (IntOp.addi x nW) x) 0#32)
      (IntOp.cmpi .sle (Scalar.select (IntOp.cmpi .slt x 0#32) (IntOp.addi x nW) x) hi) = 1#1 := by
  have hs : IntOp.cmpi .slt x 0#32 = 0#1 := by
    show BitVec.ofBool (x.slt 0#32) = 0#1
    have : x.slt 0#32 = false := by
      rw [BitVec.slt_eq_decide]
      simp only [decide_eq_false_iff_not, not_lt]
      simpa using h0
    rw [this]; rfl
  have hsel : Scalar.select (IntOp.cmpi .slt x 0#32) (IntOp.addi x nW) x = x := by
    rw [hs]; rfl
  rw [hsel]
  have hge : IntOp.cmpi .sge x 0#32 = 1#1 := by
    show BitVec.ofBool ((0#32).sle x) = 1#1
    have : (0#32).sle x = true := by
      rw [BitVec.sle_eq_decide]
      simpa using h0
    rw [this]; rfl
  have hle : IntOp.cmpi .sle x hi = 1#1 := by
    show BitVec.ofBool (x.sle hi) = 1#1
    have : x.sle hi = true := by
      rw [BitVec.sle_eq_decide]
      simpa using h1
    rw [this]; rfl
  rw [hge, hle]; decide

/-! ## The shapes: a million edges, rows of 64 features -/

abbrev S0 : Shape := ⟨0, ![]⟩
abbrev S1 : Shape := ⟨1, ![1]⟩
abbrev S11 : Shape := ⟨2, ![1, 1]⟩
abbrev SE : Shape := ⟨1, ![1000000]⟩
abbrev SE1 : Shape := ⟨2, ![1000000, 1]⟩
abbrev SEH : Shape := ⟨2, ![1000000, 64]⟩

/-- The index column the gather reads: the length `nW` added to the negative indices, laid out as a column. -/
abbrev normCol (hb : S0.BroadcastsInDim SE ![]) (hcol : SE.BroadcastsInDim SE1 ![0]) (nW : BitVec 32) (idx : IVec SE 32) :
    IVec SE1 32 :=
  broadcastInDim SE1 ![0] hcol
    (select (cmpi .slt idx (broadcastInDim SE ![] hb (constantI S0 32 0#32)))
      (addi idx (broadcastInDim SE ![] hb (constantI S0 32 nW))) idx)

/-- The range test of the filled gather, per edge and feature: `0 ≤ j e ≤ hi`, spread along the row. -/
abbrev inRange (hb : S0.BroadcastsInDim SE ![]) (hcol : SE.BroadcastsInDim SE1 ![0]) (hb2 : S0.BroadcastsInDim SE1 ![])
    (h1 : S1.BroadcastsInDim S11 ![1]) (h11 : S11.BroadcastsInDim SE1 ![0, 1]) {axes : List (Fin SE1.rank)} (hred : SE1.ReducesTo axes SE)
    (hu : 0 < S0.numel) (hrow : SE.BroadcastsInDim SEH ![0]) (nW hiW : BitVec 32) (idx : IVec SE 32) : IVec SEH 1 :=
  broadcastInDim SEH ![0] hrow
    (Host.reduce IntOp.andi
      (andi (cmpi .sge (normCol hb hcol nW idx) (broadcastInDim SE1 ![] hb2 (constantI S0 32 0#32)))
        (cmpi .sle (normCol hb hcol nW idx) (broadcastInDim SE1 ![0, 1] h11 (broadcastInDim S11 ![1] h1 (constantI S1 32 hiW)))))
      (constantI S0 1 1#1) hred hu)

/-- With every index in `0 … hi` the range test holds everywhere, so the filled gather keeps every gathered row. -/
theorem filled_eq {α : Type} (hb : S0.BroadcastsInDim SE ![]) (hcol : SE.BroadcastsInDim SE1 ![0]) (hb2 : S0.BroadcastsInDim SE1 ![])
    (h1 : S1.BroadcastsInDim S11 ![1]) (h11 : S11.BroadcastsInDim SE1 ![0, 1]) {axes : List (Fin SE1.rank)} (hred : SE1.ReducesTo axes SE)
    (hu : 0 < S0.numel) (hrow : SE.BroadcastsInDim SEH ![0]) (nW hiW : BitVec 32) (idx : IVec SE 32)
    (hidx : ∀ e, 0 ≤ (idx e).toInt ∧ (idx e).toInt ≤ hiW.toInt) (g fill : SEH.Idx → α) :
    select (inRange hb hcol hb2 h1 h11 hred hu hrow nW hiW idx) g fill = g := by
  funext i
  rw [select_apply]
  have hm : inRange hb hcol hb2 h1 h11 hred hu hrow nW hiW idx i = 1#1 := by
    unfold inRange
    unfold broadcastInDim
    refine reduce_andi_one _ _ _ _ (fun _ => rfl) (fun j => ?_) _
    exact elem_in_range _ _ _ (hidx _).1 (hidx _).2
  rw [hm]; rfl

end Cert.Take

end
-- ==== Proof.Region0.lean ====
/-
  The value of the author projection as the tiled kernel computes it.

  The kernel walks the 100000 author rows in 10 blocks of 10000.  On a block it multiplies the 10000 x 128 slab of
  features by the whole 128 x 64 weight matrix into a zero accumulator and adds the bias, laid out as one row and
  repeated down the block.  Read at row `p` and column `q` of the block that is
  `(∑ k, x[p,k] · W[k,q]) + b[q]`.  Block `t` of the features is rows `10000·t + p`; the weights and the bias are the
  same at every block; block `t` of the result is rows `10000·t + p` too.  So each block writes the matching rows of the
  whole-array projection, and since row `r` lies in block `r / 10000`, the ten blocks fill the array.
-/
import proofs.«419581_j87247965651651_3_alg».proof.Proof.Gen.KernelIdeal.Frame
import proofs.«419581_j87247965651651_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx Cert.KernelIdeal Cert.KernelIdeal.Gen

/-! ## The block product at a row and a column -/

/-- The left operand's row coordinate is the result's row. -/
theorem lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the summation index. -/
theorem lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the summation index. -/
theorem rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the result's column. -/
theorem rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block of rows times the weight matrix, into a zero accumulator, at row `p` and column `q`: the sum over the 128
    feature columns. -/
theorem product_apply (x : Vec Ideal S10000x128 .f32) (w : Vec Ideal S128x64 .f32) (p : Fin 10000) (q : Fin 64) :
    matmul (F := Ideal) (φ₁ := .f32) (φ₂ := .f32) dot_S10000x128_S128x64_S10000x64_1_0_0_1_n_n none x w (constant (F := Ideal) S10000x64 .f32 0x00000000#32) (ix2 p q)
      = ∑ k : Fin 128, x (ix2 p k) * w (ix2 k q) := by
  refine (Ideal.matmul_constant_zero_apply (φ₁ := .f32) (φ₂ := .f32) dot_S10000x128_S128x64_S10000x64_1_0_0_1_n_n none x w (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The bias, one row repeated down the block -/

/-- The bias laid out as one row and repeated over the block's rows reads, at row `p` and column `q`, the bias at `q`. -/
theorem bias_apply {α : Type} (b : S64.Idx → α) (hc : S64.ShapeCasts S1x64) (hb : S1x64.Broadcasts S10000x64)
    (p : Fin 10000) (q : Fin 64) :
    broadcastTo S10000x64 (shapeCast S1x64 b hc) hb (ix2 p q) = b (ix1 q) :=
  (broadcastTo_1b_ab_apply (a := 10000) (b := 64) (shapeCast S1x64 b hc) hb p q).trans
    (shapeCast_a_1a_apply (a := 64) b hc (0 : Fin 1) q)

/-! ## What the body computes on a block -/

/-- The body's result on a block of rows `x`, the weights `w` and the bias `b`, at row `p` and column `q`. -/
theorem body_apply (x : Vec Ideal S10000x128 .f32) (w : Vec Ideal S128x64 .f32) (b : Vec Ideal S64 .f32)
    (p : Fin 10000) (q : Fin 64) :
    k0_pay1 (F := Ideal) x w b (ix2 p q) = (∑ k : Fin 128, x (ix2 p k) * w (ix2 k q)) + b (ix1 q) := by
  unfold k0_pay1
  refine (addf_apply _ _ (ix2 p q)).trans ?_
  exact congrArg₂ (· + ·) (product_apply x w p q) (bias_apply b _ _ p q)

/-! ## The blocks of the arrays -/

theorem zero2 : (![0, 0] : Fin 2 → Nat) = fun _ => 0 := funext fun a => match a with | ⟨0, _⟩ => rfl | ⟨1, _⟩ => rfl
theorem zero1 : (![0] : Fin 1 → Nat) = fun _ => 0 := funext fun a => match a with | ⟨0, _⟩ => rfl

/-- Where each window's block sits at grid point `t`: the features' row block is the result's, which is `t`; every other
    block index is `0` (the weights and the bias are whole, and the feature and result columns are one block). -/
theorem block_index : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `p` of block `t` of the features is the array's row under row `p` of block `t` of the result. -/
theorem features_block (p : Fin 10000) (q : Fin 64) (k : Fin 128) :
    iblk0 V c 0 t (ix2 p k) = V c main_arg0 (ix2 ((((cfg0.win 3).blk t).view.emb (ix2 p q)) 0) k) := by
  show V c main_arg0 (((cfg0.win 0).blk t).view.emb (ix2 p k)) = _
  refine congrArg (V c main_arg0) (funext fun a => Fin.ext ?_)
  obtain ⟨e0, e1, -, -, -, -, -⟩ := block_index t
  match a with
  | ⟨0, _⟩ => show win0_0.index t (0 : Fin 2) * 10000 + 1 * p.val = win0_3.index t (0 : Fin 2) * 10000 + 1 * p.val; omega
  | ⟨1, _⟩ => show win0_0.index t (1 : Fin 2) * 128 + 1 * k.val = k.val; omega

/-- The weights' block is the whole matrix; column `q` is the array's column under column `q` of the result's block. -/
theorem weights_block (p : Fin 10000) (q : Fin 64) (k : Fin 128) :
    iblk0 V c 1 t (ix2 k q) = V c main_arg2 (ix2 k ((((cfg0.win 3).blk t).view.emb (ix2 p q)) 1)) := by
  show V c main_arg2 (((cfg0.win 1).blk t).view.emb (ix2 k q)) = _
  refine congrArg (V c main_arg2) (funext fun a => Fin.ext ?_)
  obtain ⟨-, -, e2, e3, -, -, e6⟩ := block_index t
  match a with
  | ⟨0, _⟩ => show win0_1.index t (0 : Fin 2) * 128 + 1 * k.val = k.val; omega
  | ⟨1, _⟩ => show win0_1.index t (1 : Fin 2) * 64 + 1 * q.val = win0_3.index t (1 : Fin 2) * 64 + 1 * q.val; omega

/-- The bias's block is the whole vector. -/
theorem bias_block (p : Fin 10000) (q : Fin 64) :
    iblk0 V c 2 t (ix1 q) = V c main_arg3 (ix1 ((((cfg0.win 3).blk t).view.emb (ix2 p q)) 1)) := by
  show V c main_arg3 (((cfg0.win 2).blk t).view.emb (ix1 q)) = _
  refine congrArg (V c main_arg3) (funext fun a => Fin.ext ?_)
  obtain ⟨-, -, -, -, e4, -, e6⟩ := block_index t
  match a with
  | ⟨0, _⟩ => show win0_2.index t (0 : Fin 1) * 64 + 1 * q.val = win0_3.index t (1 : Fin 2) * 64 + 1 * q.val; omega

/-! ## What a grid point writes back -/

/-- Grid point `t` writes back block `t` of the projection of the whole arrays. -/
theorem written_block :
    (dat0 (F := Ideal) V c).flushed 3 t
      = ((cfg0.win 3).blk t).view.read (Elt Ideal) (Cert.Spec.affine (V c main_arg0) (V c main_arg2) (V c main_arg3)) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x64) zero2, View.ld_unit_zero (S := S64) zero1]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
    = Cert.Spec.affine (V c main_arg0) (V c main_arg2) (V c main_arg3) (((cfg0.win 3).blk t).view.emb (ix2 p q))
  refine (body_apply _ _ _ p q).trans ?_
  unfold Cert.Spec.affine
  exact congrArg₂ (· + ·)
    (Finset.sum_congr rfl fun k _ => congrArg₂ (· * ·) (features_block V c t p q k) (weights_block V c t p q k))
    (bias_block V c t p q)

end Blocks

/-! ## The blocks fill the array -/

/-- An index of the result is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v11).slice (win0_3.rect t)).set ↔ _
  rw [View.set_slice_whole, Rect.mem_set_unit]
  exact Iff.rfl

/-- Row `r` lies in block `r / 10000`, and every block holds all 64 columns. -/
theorem blocks_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := rfl
  have hG : grid0.N = 10 := rfl
  refine ⟨⟨(i 0).val / 10000, by omega⟩, flush0_3 _, ?_⟩
  rw [mem_block]
  obtain ⟨-, -, -, -, -, e5, e6⟩ := block_index ⟨(i 0).val / 10000, by omega⟩
  have e5' : win0_3.index ⟨(i 0).val / 10000, by omega⟩ (0 : Fin 2) = (i 0).val / 10000 := e5
  intro a
  match a with
  | ⟨0, _⟩ =>
    show win0_3.index ⟨(i 0).val / 10000, _⟩ (0 : Fin 2) * 10000 ≤ (i 0).val ∧ (i 0).val < win0_3.index ⟨(i 0).val / 10000, _⟩ (0 : Fin 2) * 10000 + 10000
    omega
  | ⟨1, _⟩ =>
    show win0_3.index ⟨(i 0).val / 10000, _⟩ (1 : Fin 2) * 64 ≤ (i 1).val ∧ (i 1).val < win0_3.index ⟨(i 0).val / 10000, _⟩ (1 : Fin 2) * 64 + 64
    omega

/-! ## The array the region leaves -/

/-- After the ten blocks, the result array is the projection of the features, the weights and the bias as the region
    found them. -/
theorem value (V : (c : Dev nD) → (b : Ref sig .tc) → Buf (Elt Ideal) ((c : Thread nD τ).loc b)) (c : Dev nD) :
    (dat0 (F := Ideal) V c).arrAt 3 cfg0.N = Cert.Spec.affine (V c main_arg0) (V c main_arg2) (V c main_arg3) :=
  (dat0 (F := Ideal) V c).arrAt_eq_of_cover 3 (Cert.Spec.affine (V c main_arg0) (V c main_arg2) (V c main_arg3))
    (fun t _ => written_block V c t) blocks_cover

end Cert.KernelIdeal.Region0

end
-- ==== Proof.Region1.lean ====
/-
  The value of the first mean-aggregation layer, as the blocked kernel computes it.

  The layer's output has 300000 rows of 64 columns and is produced in 20 blocks of 15000 rows.  For the block at grid
  point `t` the body reads rows `15000·t … 15000·t + 14999` of the summed neighbour features, of the neighbour counts and
  of the nodes' own features, and the whole of the two weight matrices and the bias, and leaves in row `p`, column `q` of
  its block

    max ((∑ k, (agg[p,k] / cnt[p,0]) · Wl[k,q]) + bl[q] + ∑ k, xdst[p,k] · Wr[k,q]) 0.

  Read at the array's row `15000·t + p` this is the layer's formula `Cert.Spec.sage`, and the 20 blocks tile the array:
  row `r` lies in block `r / 15000`.  So the array the region leaves is `Cert.Spec.sage` of the arrays it found.
-/
import proofs.«419581_j87247965651651_3_alg».proof.Proof.Gen.KernelIdeal.Frame
import proofs.«419581_j87247965651651_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx Cert.KernelIdeal Cert.KernelIdeal.Gen

/-! ## The block product: a 15000 × 64 block against a 64 × 64 matrix, contracted over the block's columns -/

/-- The left operand is read at the output's row … -/
theorem lhs_row (i : S15000x64.Idx) (q : dot_S15000x64_S64x64_S15000x64_1_0_0_1_n_n.contr.Idx) :
    (dot_S15000x64_S64x64_S15000x64_1_0_0_1_n_n.lhsIdx i q 0).val = (i 0).val := by
  unfold DotDims.lhsIdx
  rw [dif_neg (show ¬(0 : Fin S15000x64.rank) ∈ dot_S15000x64_S64x64_S15000x64_1_0_0_1_n_n.lhsBatch by decide), dif_pos (show (0 : Fin S15000x64.rank) ∈ dot_S15000x64_S64x64_S15000x64_1_0_0_1_n_n.lhsNonContracting by decide)]
  rfl
/-- … and the contraction coordinate as its column. -/
theorem lhs_col (i : S15000x64.Idx) (q : dot_S15000x64_S64x64_S15000x64_1_0_0_1_n_n.contr.Idx) :
    (dot_S15000x64_S64x64_S15000x64_1_0_0_1_n_n.lhsIdx i q 1).val = (q ⟨0, by decide⟩).val :=
  dot_S15000x64_S64x64_S15000x64_1_0_0_1_n_n.lhsIdx_val_of_single rfl i q
/-- The right operand is read at the contraction coordinate as its row … -/
theorem rhs_row (i : S15000x64.Idx) (q : dot_S15000x64_S64x64_S15000x64_1_0_0_1_n_n.contr.Idx) :
    (dot_S15000x64_S64x64_S15000x64_1_0_0_1_n_n.rhsIdx i q 0).val = (q ⟨0, by decide⟩).val :=
  dot_S15000x64_S64x64_S15000x64_1_0_0_1_n_n.rhsIdx_val_of_single rfl i q
/-- … and the output's column. -/
theorem rhs_col (i : S15000x64.Idx) (q : dot_S15000x64_S64x64_S15000x64_1_0_0_1_n_n.contr.Idx) :
    (dot_S15000x64_S64x64_S15000x64_1_0_0_1_n_n.rhsIdx i q 1).val = (i 1).val := by
  unfold DotDims.rhsIdx
  rw [dif_neg (show ¬(1 : Fin S64x64.rank) ∈ dot_S15000x64_S64x64_S15000x64_1_0_0_1_n_n.rhsBatch by decide), dif_pos (show (1 : Fin S64x64.rank) ∈ dot_S15000x64_S64x64_S15000x64_1_0_0_1_n_n.rhsNonContracting by decide)]
  rfl

/-- The block product into the zero accumulator, read at row `p` and column `q`: the sum over the 64 shared
    coordinates of the row's entries times the column's. -/
theorem block_product_apply (a : FVec Ideal S15000x64 .f32) (w : FVec Ideal S64x64 .f32) (p : Fin 15000) (q : Fin 64) :
    matmul (F := Ideal) dot_S15000x64_S64x64_S15000x64_1_0_0_1_n_n none a w (constant (F := Ideal) S15000x64 .f32 0x00000000#32) (ix2 p q)
      = ∑ k : Fin 64, a (ix2 p k) * w (ix2 k q) := by
  show FloatOps.matmul dot_S15000x64_S64x64_S15000x64_1_0_0_1_n_n none a w (constant (F := Ideal) S15000x64 .f32 0x00000000#32) (ix2 p q) = _
  rw [Ideal.matmul_constant_zero_apply, ← Equiv.sum_comp (contrEquiv1 dot_S15000x64_S64x64_S15000x64_1_0_0_1_n_n 64 rfl rfl).symm]
  refine Finset.sum_congr rfl fun k _ => ?_
  have hk := contrEquiv1_symm_val dot_S15000x64_S64x64_S15000x64_1_0_0_1_n_n 64 rfl rfl k
  have el : dot_S15000x64_S64x64_S15000x64_1_0_0_1_n_n.lhsIdx (ix2 p q) ((contrEquiv1 dot_S15000x64_S64x64_S15000x64_1_0_0_1_n_n 64 rfl rfl).symm k) = ix2 p k := funext fun ax => Fin.ext (by
    match ax with
    | ⟨0, _⟩ => exact lhs_row _ _
    | ⟨1, _⟩ => exact (lhs_col _ _).trans hk)
  have er : dot_S15000x64_S64x64_S15000x64_1_0_0_1_n_n.rhsIdx (ix2 p q) ((contrEquiv1 dot_S15000x64_S64x64_S15000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-! ## The two broadcasts -/

/-- A column `[a, 1]` broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bias `[64]`, given a leading unit axis and repeated down the 15000 rows, reads at `(p, q)` its entry `q`. -/
theorem bias_rows_apply (b : FVec Ideal S64 .f32) (p : Fin 15000) (q : Fin 64) :
    broadcastTo S15000x64 (shapeCast S1x64 b shapeCasts_S64_S1x64) broadcasts_S1x64_S15000x64 (ix2 p q) = b (ix1 q) :=
  (broadcastTo_1b_ab_apply _ broadcasts_S1x64_S15000x64 p q).trans (shapeCast_a_1a_apply b shapeCasts_S64_S1x64 0 q)

/-! ## The body's result at a row and a column of its block -/

/-- What the body computes from its six blocks, at row `p` and column `q`: the layer's formula on the blocks' entries. -/
theorem payload_apply (agg : Vec Ideal S15000x64 .f32) (cnt : Vec Ideal S15000x1 .f32) (Wl : Vec Ideal S64x64 .f32)
    (bl : Vec Ideal S64 .f32) (xdst : Vec Ideal S15000x64 .f32) (Wr : Vec Ideal S64x64 .f32) (p : Fin 15000) (q : Fin 64) :
    k1_pay1 (F := Ideal) agg cnt Wl bl xdst Wr (ix2 p q)
      = max (((∑ k : Fin 64, Ideal.div (agg (ix2 p k)) (cnt (ix2 p 0)) * Wl (ix2 k q)) + bl (ix1 q))
          + ∑ k : Fin 64, xdst (ix2 p k) * Wr (ix2 k q)) Cert.Spec.z32 := by
  unfold k1_pay1
  simp only [shapeCast_self]
  show max ((matmul (F := Ideal) dot_S15000x64_S64x64_S15000x64_1_0_0_1_n_n none (divf agg (broadcastTo S15000x64 cnt broadcasts_S15000x1_S15000x64)) Wl (constant (F := Ideal) S15000x64 .f32 0x00000000#32) (ix2 p q)
      + broadcastTo S15000x64 (shapeCast S1x64 bl shapeCasts_S64_S1x64) broadcasts_S1x64_S15000x64 (ix2 p q))
      + matmul (F := Ideal) dot_S15000x64_S64x64_S15000x64_1_0_0_1_n_n none xdst Wr (constant (F := Ideal) S15000x64 .f32 0x00000000#32) (ix2 p q)) Cert.Spec.z32 = _
  rw [block_product_apply, block_product_apply, bias_rows_apply]
  refine congrArg (fun s => max ((s + bl (ix1 q)) + ∑ k : Fin 64, xdst (ix2 p k) * Wr (ix2 k q)) Cert.Spec.z32) ?_
  refine Finset.sum_congr rfl fun k _ => ?_
  show Ideal.div (agg (ix2 p k)) (broadcastTo S15000x64 cnt broadcasts_S15000x1_S15000x64 (ix2 p k)) * Wl (ix2 k q) = _
  rw [broadcastTo_a1_ab_apply]

/-! ## The blocks of the arrays at a grid point -/

section Blocks

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The grid has 20 points. -/
theorem points : cfg1.N = 20 := by decide

/-- The index maps, decided over the 20 points: at point `t` the three row-blocked inputs and the output are at row
    block `t`, column block 0; the two weight matrices and the bias are always at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the block at point `t` is row `15000·t + p` of the array. -/
def row (t : Fin cfg1.N) (p : Fin 15000) : Fin 300000 :=
  ⟨15000 * t.val + p.val, by have ht : t.val < 20 := Nat.lt_of_lt_of_eq t.isLt points; have hp := p.isLt; omega⟩

/-- The summed neighbour features' block: rows `15000·t …` of the array, all 64 columns. -/
theorem agg_block (c : Dev nD) (t : Fin cfg1.N) (p : Fin 15000) (k : Fin 64) :
    (iblk1 V c 0 t : Vec Ideal S15000x64 .f32) (ix2 p k) = (V c main_v15 : S300000x64.Idx → EReal) (ix2 (row t p) k) := by
  obtain ⟨e0, e1, -⟩ := index_facts t
  show V c main_v15 (((cfg1.win 0).blk t).view.emb (ix2 p k)) = _
  refine congrArg (V c main_v15) (funext fun a => Fin.ext ?_)
  match a with
  | ⟨0, _⟩ => show win1_0.index t (0 : Fin 2) * 15000 + 1 * p.val = 15000 * t.val + p.val; omega
  | ⟨1, _⟩ => show win1_0.index t (1 : Fin 2) * 64 + 1 * k.val = k.val; omega

/-- The nodes' own features' block: the same rows. -/
theorem xdst_block (c : Dev nD) (t : Fin cfg1.N) (p : Fin 15000) (k : Fin 64) :
    (iblk1 V c 1 t : Vec Ideal S15000x64 .f32) (ix2 p k) = (V c main_arg1 : S300000x64.Idx → EReal) (ix2 (row t p) k) := by
  obtain ⟨-, -, e0, e1, -⟩ := index_facts t
  show V c main_arg1 (((cfg1.win 1).blk t).view.emb (ix2 p k)) = _
  refine congrArg (V c main_arg1) (funext fun a => Fin.ext ?_)
  match a with
  | ⟨0, _⟩ => show win1_1.index t (0 : Fin 2) * 15000 + 1 * p.val = 15000 * t.val + p.val; omega
  | ⟨1, _⟩ => show win1_1.index t (1 : Fin 2) * 64 + 1 * k.val = k.val; omega

/-- The neighbour counts' block: the same rows of the one column. -/
theorem cnt_block (c : Dev nD) (t : Fin cfg1.N) (p : Fin 15000) :
    (iblk1 V c 2 t : Vec Ideal S15000x1 .f32) (ix2 p 0) = (V c main_v5 : S300000x1.Idx → EReal) (ix2 (row t p) 0) := by
  obtain ⟨-, -, -, -, e0, e1, -⟩ := index_facts t
  show V c main_v5 (((cfg1.win 2).blk t).view.emb (ix2 p 0)) = _
  refine congrArg (V c main_v5) (funext fun a => Fin.ext ?_)
  match a with
  | ⟨0, _⟩ => show win1_2.index t (0 : Fin 2) * 15000 + 1 * p.val = 15000 * t.val + p.val; omega
  | ⟨1, _⟩ => show win1_2.index t (1 : Fin 2) * 1 + 1 * 0 = 0; omega

/-- The neighbour weights are read whole at every point. -/
theorem Wl_block (c : Dev nD) (t : Fin cfg1.N) (k : Fin 64) (q : Fin 64) :
    (iblk1 V c 3 t : Vec Ideal S64x64 .f32) (ix2 k q) = (V c main_arg4 : S64x64.Idx → EReal) (ix2 k q) := by
  obtain ⟨-, -, -, -, -, -, e0, e1, -⟩ := index_facts t
  show V c main_arg4 (((cfg1.win 3).blk t).view.emb (ix2 k q)) = _
  refine congrArg (V c main_arg4) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- So is the bias. -/
theorem bl_block (c : Dev nD) (t : Fin cfg1.N) (q : Fin 64) :
    (iblk1 V c 4 t : Vec Ideal S64 .f32) (ix1 q) = (V c main_arg5 : S64.Idx → EReal) (ix1 q) := by
  obtain ⟨-, -, -, -, -, -, -, -, e0, -⟩ := index_facts t
  show V c main_arg5 (((cfg1.win 4).blk t).view.emb (ix1 q)) = _
  refine congrArg (V c main_arg5) (funext fun a => Fin.ext ?_)
  match a with
  | ⟨0, _⟩ => show win1_4.index t (0 : Fin 1) * 64 + 1 * q.val = q.val; omega

/-- So are the nodes' own weights. -/
theorem Wr_block (c : Dev nD) (t : Fin cfg1.N) (k : Fin 64) (q : Fin 64) :
    (iblk1 V c 5 t : Vec Ideal S64x64 .f32) (ix2 k q) = (V c main_arg6 : S64x64.Idx → EReal) (ix2 k q) := by
  obtain ⟨-, -, -, -, -, -, -, -, -, e0, e1, -⟩ := index_facts t
  show V c main_arg6 (((cfg1.win 5).blk t).view.emb (ix2 k q)) = _
  refine congrArg (V c main_arg6) (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- The output's block at point `t` sits at the same rows: its entry `(p, q)` is the array's `(15000·t + p, q)`. -/
theorem out_block_emb (t : Fin cfg1.N) (p : Fin 15000) (q : Fin 64) :
    (((cfg1.win 6).blk t).view.emb (ix2 p q) : S300000x64.Idx) = ix2 (row t p) q := by
  obtain ⟨-, -, -, -, -, -, -, -, -, -, -, e0, e1⟩ := index_facts t
  refine funext fun a => Fin.ext ?_
  match a with
  | ⟨0, _⟩ => show win1_6.index t (0 : Fin 2) * 15000 + 1 * p.val = 15000 * t.val + p.val; omega
  | ⟨1, _⟩ => show win1_6.index t (1 : Fin 2) * 64 + 1 * q.val = q.val; omega

/-! ## What a grid point writes back -/

/-- The block point `t` writes back is block `t` of the layer's formula on the arrays the region found. -/
theorem flushed_eq (c : Dev nD) (t : Fin cfg1.N) :
    (dat1 (F := Ideal) V c).flushed 6 t = ((cfg1.win 6).blk t).view.read (Elt Ideal)
      (Cert.Spec.sage (V c main_v15) (V c main_arg1) (V c main_v5) (V c main_arg4) (V c main_arg5) (V c main_arg6)) := by
  show (cfg1.win 6).cut (grid1.coords t) ((dat1 V c).after 6 t) = _
  rw [after1_6]
  unfold out1_6
  rw [View.canon_unit_zero zero2]
  simp only [View.ld_unit_zero (S := S15000x64) zero2, View.ld_unit_zero (S := S15000x1) zero2,
    View.ld_unit_zero (S := S64x64) zero2, View.ld_unit_zero (S := S64) zero1]
  funext j
  obtain ⟨p, q, rfl⟩ : ∃ (p : Fin 15000) (q : Fin 64), j = ix2 p q := ⟨j 0, j 1, eq_ix2 j⟩
  show k1_pay1 (F := Ideal) (iblk1 V c 0 t) (iblk1 V c 2 t) (iblk1 V c 3 t) (iblk1 V c 4 t) (iblk1 V c 1 t) (iblk1 V c 5 t) (ix2 p q)
    = Cert.Spec.sage (V c main_v15) (V c main_arg1) (V c main_v5) (V c main_arg4) (V c main_arg5) (V c main_arg6) (((cfg1.win 6).blk t).view.emb (ix2 p q))
  rw [out_block_emb]
  refine (payload_apply _ _ _ _ _ _ p q).trans ?_
  simp only [agg_block, xdst_block, cnt_block, Wl_block, bl_block, Wr_block]
  rfl

/-! ## The blocks tile the array -/

/-- An index of the array is in point `t`'s block iff each coordinate is in the block's range on its axis. -/
theorem mem_out_block (t : Fin cfg1.N) (i : S300000x64.Idx) :
    i ∈ ((cfg1.win 6).blk t).view.set ↔ ∀ a : Fin 2, win1_6.index t a * S15000x64.size a ≤ (i a).val ∧ (i a).val < win1_6.index t a * S15000x64.size a + S15000x64.size a := by
  show i ∈ ((View.whole main_v16).slice (win1_6.rect t)).set ↔ _
  rw [View.set_slice_whole, Rect.mem_set_unit]
  exact Iff.rfl

/-- Row `r` lies in the block of point `r / 15000`, which is written back. -/
theorem cover (i : S300000x64.Idx) : ∃ t : Fin cfg1.N, (cfg1.win 6).flush t = true ∧ i ∈ ((cfg1.win 6).blk t).view.set := by
  have hi0 : (i 0).val < 300000 := (i 0).isLt
  have hi1 : (i 1).val < 64 := (i 1).isLt
  obtain ⟨t, ht⟩ : ∃ t : Fin cfg1.N, t.val = (i 0).val / 15000 := ⟨⟨(i 0).val / 15000, by rw [points]; omega⟩, rfl⟩
  obtain ⟨-, -, -, -, -, -, -, -, -, -, -, e0, e1⟩ := index_facts t
  refine ⟨t, flush1_6 t, ?_⟩
  rw [mem_out_block]
  intro a
  match a with
  | ⟨0, _⟩ => show win1_6.index t (0 : Fin 2) * 15000 ≤ (i 0).val ∧ (i 0).val < win1_6.index t (0 : Fin 2) * 15000 + 15000; omega
  | ⟨1, _⟩ => show win1_6.index t (1 : Fin 2) * 64 ≤ (i 1).val ∧ (i 1).val < win1_6.index t (1 : Fin 2) * 64 + 64; omega

end Blocks

/-! ## The array the region leaves -/

/-- The layer's output array after the region: the layer's formula on the arrays the region found. -/
theorem value (V : (c : Dev nD) → (b : Ref sig .tc) → Buf (Elt Ideal) ((c : Thread nD τ).loc b)) (c : Dev nD) :
    (dat1 (F := Ideal) V c).arrAt 6 cfg1.N = Cert.Spec.sage (V c main_v15) (V c main_arg1) (V c main_v5) (V c main_arg4) (V c main_arg5) (V c main_arg6) :=
  (dat1 (F := Ideal) V c).arrAt_eq_of_cover 6 _ (fun t _ => flushed_eq V c t) cover

end Cert.KernelIdeal.Region1

end
-- ==== Proof.Region2.lean ====
/-
  The value of the first author layer, as the blocked kernel computes it.

  The layer's output has 100000 rows of 64 columns and is produced in 10 blocks of 10000 rows.  For the block at grid
  point `t` the body reads rows `10000·t … 10000·t + 9999` of the summed neighbour features, of the neighbour counts and of
  the authors' own projected features, and the whole of the two weight matrices and the bias, and leaves in row `p`,
  column `q` of its block `max ((∑ k, (agg[p,k] / cnt[p,0]) · Wl[k,q]) + bl[q] + ∑ k, xdst[p,k] · Wr[k,q]) 0`.  At the
  array's row `10000·t + p` this is the layer's formula, and the ten blocks tile the array: row `r` lies in block
  `r / 10000`.
-/
import proofs.«419581_j87247965651651_3_alg».proof.Proof.Gen.KernelIdeal.Frame
import proofs.«419581_j87247965651651_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx Cert.KernelIdeal Cert.KernelIdeal.Gen

/-! ## The block product read at an index

The body's two products contract the second axis of a `[10000, 64]` block against the first axis of a `[64, 64]`
weight matrix, into a zero accumulator: entry `(p, q)` is `∑ k, a[p, k] · w[k, q]`. -/

/-- The left operand's row coordinate is the output's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contracted coordinate. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row coordinate is the contracted coordinate. -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column coordinate is the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator, at `(p, q)`: `∑ k, a[p, k] · w[k, q]`. -/
theorem product_apply (a : FVec Ideal S10000x64 .f32) (w : FVec Ideal S64x64 .f32) (p : Fin 10000) (q : Fin 64) :
    matmul (F := Ideal) dot_S10000x64_S64x64_S10000x64_1_0_0_1_n_n none a w (constant (F := Ideal) S10000x64 .f32 0x00000000#32) (ix2 p q)
      = ∑ k : Fin 64, a (ix2 p k) * w (ix2 k q) := by
  refine (Ideal.matmul_constant_zero_apply dot_S10000x64_S64x64_S10000x64_1_0_0_1_n_n none a w (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The two broadcasts read at an index -/

/-- The bias `[64]`, viewed `[1, 64]` and repeated down the rows, reads `b[q]` at `(p, q)`. -/
theorem bias_apply (b : Vec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-- A column `[10000, 1]` repeated along the rows reads `c[p, 0]` at `(p, q)`. -/
theorem column_apply (c : Vec Ideal S10000x1 .f32) (p : Fin 10000) (q : Fin 64) :
    broadcastTo S10000x64 c broadcasts_S10000x1_S10000x64 (ix2 p q) = c (ix2 p 0) := by
  refine broadcastTo_apply c broadcasts_S10000x1_S10000x64 (ix2 p q) (ix2 p 0) fun ax => ?_
  match ax with
  | ⟨0, _⟩ => rfl
  | ⟨1, _⟩ => rfl

/-! ## The body's arithmetic at an index -/

/-- The body's result at `(p, q)` of a block: the mean-aggregation layer's formula on the blocks' entries. -/
theorem payload_apply (agg : Vec Ideal S10000x64 .f32) (cnt : Vec Ideal S10000x1 .f32) (Wl : Vec Ideal S64x64 .f32)
    (bl : Vec Ideal S64 .f32) (xdst : Vec Ideal S10000x64 .f32) (Wr : Vec Ideal S64x64 .f32) (p : Fin 10000) (q : Fin 64) :
    k2_pay1 (F := Ideal) agg cnt Wl bl xdst Wr (ix2 p q)
      = max (((∑ k : Fin 64, Ideal.div (agg (ix2 p k)) (cnt (ix2 p 0)) * Wl (ix2 k q)) + bl (ix1 q))
          + ∑ k : Fin 64, xdst (ix2 p k) * Wr (ix2 k q)) Cert.Spec.z32 := by
  unfold k2_pay1
  rw [shapeCast_self agg, shapeCast_self cnt, shapeCast_self xdst]
  refine (maximumf_apply _ _ _).trans (congrArg₂ max ?_ rfl)
  refine (addf_apply _ _ _).trans (congrArg₂ (· + ·) ((addf_apply _ _ _).trans (congrArg₂ (· + ·) ?_ (bias_apply bl p q))) (product_apply xdst Wr p q))
  refine (product_apply _ Wl p q).trans (Finset.sum_congr rfl fun k _ => ?_)
  exact congrArg (· * Wl (ix2 k q)) ((divf_apply _ _ _).trans (congrArg (Ideal.div (agg (ix2 p k))) (column_apply cnt p k)))

/-! ## From the blocks to the array -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The windows' block indices over the grid: the three row-blocked inputs move with the output, whose block row is the
    grid point; the weights and the bias stay at block zero. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The summed-neighbour block at point `t` is the rows of its array from the output block's first row on. -/
theorem agg_block (c : Dev nD) (t : Fin cfg2.N) (y : S10000x64.Idx) (i : S100000x64.Idx)
    (h0 : (i 0).val = win2_6.index t (0 : Fin 2) * 10000 + (y 0).val) (h1 : (i 1).val = (y 1).val) :
    (iblk2 V c 0 t : Vec Ideal S10000x64 .f32) y = (V c main_v20 : S100000x64.Idx → Elt Ideal .f32) i := by
  obtain ⟨e0, e1, -⟩ := index_facts t
  unfold iblk2
  rw [View.read_apply]
  show V c main_v20 _ = V c main_v20 _
  congr 1
  funext a
  apply Fin.ext
  match a with
  | ⟨0, _⟩ => show win2_0.index t (0 : Fin 2) * 10000 + 1 * (y 0).val = (i 0).val; rw [h0, e0]; omega
  | ⟨1, _⟩ => show win2_0.index t (1 : Fin 2) * 64 + 1 * (y 1).val = (i 1).val; rw [h1, e1]; omega

/-- The node's own features' block at point `t`: the same rows of their array. -/
theorem xdst_block (c : Dev nD) (t : Fin cfg2.N) (y : S10000x64.Idx) (i : S100000x64.Idx)
    (h0 : (i 0).val = win2_6.index t (0 : Fin 2) * 10000 + (y 0).val) (h1 : (i 1).val = (y 1).val) :
    (iblk2 V c 1 t : Vec Ideal S10000x64 .f32) y = (V c main_v11 : S100000x64.Idx → Elt Ideal .f32) i := by
  obtain ⟨-, -, e0, e1, -⟩ := index_facts t
  unfold iblk2
  rw [View.read_apply]
  show V c main_v11 _ = V c main_v11 _
  congr 1
  funext a
  apply Fin.ext
  match a with
  | ⟨0, _⟩ => show win2_1.index t (0 : Fin 2) * 10000 + 1 * (y 0).val = (i 0).val; rw [h0, e0]; omega
  | ⟨1, _⟩ => show win2_1.index t (1 : Fin 2) * 64 + 1 * (y 1).val = (i 1).val; rw [h1, e1]; omega

/-- The neighbour counts' block at point `t`: the same rows of the count column. -/
theorem cnt_block (c : Dev nD) (t : Fin cfg2.N) (y : S10000x1.Idx) (i : S100000x1.Idx)
    (h0 : (i 0).val = win2_6.index t (0 : Fin 2) * 10000 + (y 0).val) (h1 : (i 1).val = (y 1).val) :
    (iblk2 V c 2 t : Vec Ideal S10000x1 .f32) y = (V c main_v10 : S100000x1.Idx → Elt Ideal .f32) i := by
  obtain ⟨-, -, -, -, e0, e1, -⟩ := index_facts t
  unfold iblk2
  rw [View.read_apply]
  show V c main_v10 _ = V c main_v10 _
  congr 1
  funext a
  apply Fin.ext
  match a with
  | ⟨0, _⟩ => show win2_2.index t (0 : Fin 2) * 10000 + 1 * (y 0).val = (i 0).val; rw [h0, e0]; omega
  | ⟨1, _⟩ => show win2_2.index t (1 : Fin 2) * 1 + 1 * (y 1).val = (i 1).val; rw [h1, e1]; omega

/-- The neighbour weights' one block is the whole matrix, at every point. -/
theorem Wl_block (c : Dev nD) (t : Fin cfg2.N) (y : S64x64.Idx) :
    (iblk2 V c 3 t : Vec Ideal S64x64 .f32) y = (V c main_arg7 : S64x64.Idx → Elt Ideal .f32) y := by
  obtain ⟨-, -, -, -, -, -, e0, e1, -⟩ := index_facts t
  unfold iblk2
  rw [View.read_apply]
  show V c main_arg7 _ = V c main_arg7 _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The bias's one block is the whole vector. -/
theorem bl_block (c : Dev nD) (t : Fin cfg2.N) (y : S64.Idx) :
    (iblk2 V c 4 t : Vec Ideal S64 .f32) y = (V c main_arg8 : S64.Idx → Elt Ideal .f32) y := by
  obtain ⟨-, -, -, -, -, -, -, -, e0, -⟩ := index_facts t
  unfold iblk2
  rw [View.read_apply]
  show V c main_arg8 _ = V c main_arg8 _
  congr 1
  funext a
  apply Fin.ext
  match a with
  | ⟨0, _⟩ => show win2_4.index t (0 : Fin 1) * 64 + 1 * (y 0).val = (y 0).val; rw [e0]; omega

/-- The own-features weights' one block is the whole matrix. -/
theorem Wr_block (c : Dev nD) (t : Fin cfg2.N) (y : S64x64.Idx) :
    (iblk2 V c 5 t : Vec Ideal S64x64 .f32) y = (V c main_arg9 : S64x64.Idx → Elt Ideal .f32) y := by
  obtain ⟨-, -, -, -, -, -, -, -, -, e0, e1, -⟩ := index_facts t
  unfold iblk2
  rw [View.read_apply]
  show V c main_arg9 _ = V c main_arg9 _
  congr 1
  funext a
  apply Fin.ext
  match a with
  | ⟨0, _⟩ => show win2_5.index t (0 : Fin 2) * 64 + 1 * (y 0).val = (y 0).val; rw [e0]; omega
  | ⟨1, _⟩ => show win2_5.index t (1 : Fin 2) * 64 + 1 * (y 1).val = (y 1).val; rw [e1]; omega

/-- What point `t` writes back is block `t` of the mean-aggregation layer of the arrays as the region finds them. -/
theorem written_block (c : Dev nD) (t : Fin cfg2.N) :
    (dat2 (F := Ideal) V c).flushed 6 t = ((cfg2.win 6).blk t).view.read (Elt Ideal)
      (Cert.Spec.sage (V c main_v20) (V c main_v11) (V c main_v10) (V c main_arg7) (V c main_arg8) (V c main_arg9)) := by
  show (cfg2.win 6).cut (grid2.coords t) ((dat2 V c).after 6 t) = _
  rw [after2_6]
  unfold out2_6
  rw [View.canon_unit_zero zero_offsets2]
  simp only [View.ld_unit_zero (S := S10000x64) zero_offsets2, View.ld_unit_zero (S := S10000x1) zero_offsets2, View.ld_unit_zero (S := S64x64) zero_offsets2, View.ld_unit_zero (S := S64) zero_offsets1]
  refine funext fun (j : S10000x64.Idx) => ?_
  obtain ⟨p, q, rfl⟩ : ∃ (p : Fin 10000) (q : Fin 64), j = ix2 p q := ⟨j 0, j 1, eq_ix2 j⟩
  refine (payload_apply _ _ _ _ _ _ p q).trans ?_
  obtain ⟨r, s, hrs⟩ : ∃ (r : Fin 100000) (s : Fin 64), ((cfg2.win 6).blk t).view.emb (ix2 p q) = ix2 r s := ⟨_, _, eq_ix2 _⟩
  have hr : win2_6.index t (0 : Fin 2) * 10000 + 1 * p.val = r.val := congrArg (fun i => (i 0).val) hrs
  have hs : win2_6.index t (1 : Fin 2) * 64 + 1 * q.val = s.val := congrArg (fun i => (i 1).val) hrs
  refine Eq.trans ?_ (congrArg (Cert.Spec.sage (V c main_v20) (V c main_v11) (V c main_v10) (V c main_arg7) (V c main_arg8) (V c main_arg9)) hrs.symm)
  obtain ⟨-, -, -, -, -, -, -, -, -, -, -, -, e1⟩ := index_facts t
  have hr' : r.val = win2_6.index t (0 : Fin 2) * 10000 + p.val := by omega
  obtain rfl : q = s := Fin.ext (by omega)
  refine congrArg₂ max ?_ rfl
  refine congrArg₂ (· + ·) (congrArg₂ (· + ·) (Finset.sum_congr rfl fun k _ => ?_) ?_) (Finset.sum_congr rfl fun k _ => ?_)
  · exact congrArg₂ (· * ·) (congrArg₂ Ideal.div (agg_block V c t (ix2 p k) (ix2 r k) hr' rfl) (cnt_block V c t (ix2 p 0) (ix2 r 0) hr' rfl)) (Wl_block V c t (ix2 k q))
  · exact bl_block V c t (ix1 q)
  · exact congrArg₂ (· * ·) (xdst_block V c t (ix2 p k) (ix2 r k) hr' rfl) (Wr_block V c t (ix2 k q))

/-- An index of the array is in point `t`'s block iff each coordinate is in the block's range on its axis. -/
theorem mem_block (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v21).slice (win2_6.rect t)).set ↔ _
  rw [View.set_slice_whole, Rect.mem_set_unit]
  exact Iff.rfl

/-- Row `r` is written by point `r / 10000`, whose block holds all 64 columns. -/
theorem blocks_cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, (by omega : (i 0).val / 10000 < 10)⟩, rfl⟩
  refine ⟨t, flush2_6 t, ?_⟩
  rw [mem_block]
  obtain ⟨-, -, -, -, -, -, -, -, -, -, -, e0, e1⟩ := index_facts t
  intro a
  match a with
  | ⟨0, _⟩ =>
    show win2_6.index t (0 : Fin 2) * 10000 ≤ (i 0).val ∧ (i 0).val < win2_6.index t (0 : Fin 2) * 10000 + 10000
    omega
  | ⟨1, _⟩ =>
    show win2_6.index t (1 : Fin 2) * 64 ≤ (i 1).val ∧ (i 1).val < win2_6.index t (1 : Fin 2) * 64 + 64
    omega

/-! ## The array the region leaves -/

/-- After the ten points the output array is the mean-aggregation layer of the summed neighbour features, the
    nodes' own features, the neighbour counts, the two weight matrices and the bias, as the region found them. -/
theorem value (V : (c : Dev nD) → (b : Ref sig .tc) → Buf (Elt Ideal) ((c : Thread nD τ).loc b)) (c : Dev nD) :
    (dat2 (F := Ideal) V c).arrAt 6 cfg2.N = Cert.Spec.sage (V c main_v20) (V c main_v11) (V c main_v10) (V c main_arg7) (V c main_arg8) (V c main_arg9) :=
  (dat2 (F := Ideal) V c).arrAt_eq_of_cover 6
    (Cert.Spec.sage (V c main_v20) (V c main_v11) (V c main_v10) (V c main_arg7) (V c main_arg8) (V c main_arg9))
    (fun t _ => written_block V c t) blocks_cover

end Cert.KernelIdeal.Region2

end
-- ==== Proof.Region3.lean ====
/-
  The value of the fourth pipelined region (the output head) of the kernel program, at the extended reals.

  Each grid point t of the 20 reads rows [15000 t, 15000 t + 15000) of the summed neighbour features, of the nodes'
  own features and of the neighbour counts, and the whole of each weight and bias; it writes the same rows of the
  one-column result.  Row by row the body is the mean-aggregation layer, a hidden layer and the final linear map, so
  the array the region leaves is the head of the arrays it found, whatever those are.
-/
import proofs.«419581_j87247965651651_3_alg».proof.Proof.Gen.KernelIdeal.Frame
import proofs.«419581_j87247965651651_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Idealize.ShloMosaic Idealize.ShloMosaic.TcCoe Idealize.SL.Sem Idealize.ShloMosaic.ValueIdx Cert.KernelIdeal Cert.KernelIdeal.Gen

/-! ## A product of a block of rows with a square weight matrix, read at an entry -/

theorem lhs_sq_0 (i : S15000x64.Idx) (q : dot_S15000x64_S64x64_S15000x64_1_0_0_1_n_n.contr.Idx) :
    (dot_S15000x64_S64x64_S15000x64_1_0_0_1_n_n.lhsIdx i q 0).val = (i 0).val := by
  unfold DotDims.lhsIdx
  rw [dif_neg (show ¬(0 : Fin S15000x64.rank) ∈ dot_S15000x64_S64x64_S15000x64_1_0_0_1_n_n.lhsBatch by decide), dif_pos (show (0 : Fin S15000x64.rank) ∈ dot_S15000x64_S64x64_S15000x64_1_0_0_1_n_n.lhsNonContracting by decide)]
  rfl
theorem lhs_sq_1 (i : S15000x64.Idx) (q : dot_S15000x64_S64x64_S15000x64_1_0_0_1_n_n.contr.Idx) :
    (dot_S15000x64_S64x64_S15000x64_1_0_0_1_n_n.lhsIdx i q 1).val = (q ⟨0, by decide⟩).val :=
  dot_S15000x64_S64x64_S15000x64_1_0_0_1_n_n.lhsIdx_val_of_single rfl i q
theorem rhs_sq_0 (i : S15000x64.Idx) (q : dot_S15000x64_S64x64_S15000x64_1_0_0_1_n_n.contr.Idx) :
    (dot_S15000x64_S64x64_S15000x64_1_0_0_1_n_n.rhsIdx i q 0).val = (q ⟨0, by decide⟩).val :=
  dot_S15000x64_S64x64_S15000x64_1_0_0_1_n_n.rhsIdx_val_of_single rfl i q
theorem rhs_sq_1 (i : S15000x64.Idx) (q : dot_S15000x64_S64x64_S15000x64_1_0_0_1_n_n.contr.Idx) :
    (dot_S15000x64_S64x64_S15000x64_1_0_0_1_n_n.rhsIdx i q 1).val = (i 1).val := by
  unfold DotDims.rhsIdx
  rw [dif_neg (show ¬(1 : Fin S64x64.rank) ∈ dot_S15000x64_S64x64_S15000x64_1_0_0_1_n_n.rhsBatch by decide), dif_pos (show (1 : Fin S64x64.rank) ∈ dot_S15000x64_S64x64_S15000x64_1_0_0_1_n_n.rhsNonContracting by decide)]
  rfl

/-- Rows times a 64 × 64 matrix into the zero accumulator: entry (p, q) is the sum over k of a[p,k] · w[k,q]. -/
theorem matmul_sq_apply (a : FVec Ideal S15000x64 .f32) (w : FVec Ideal S64x64 .f32) (p : Fin 15000) (q : Fin 64) :
    matmul (F := Ideal) dot_S15000x64_S64x64_S15000x64_1_0_0_1_n_n none a w (constant (F := Ideal) S15000x64 .f32 0x00000000#32) (ix2 p q)
      = ∑ k : Fin 64, a (ix2 p k) * w (ix2 k q) := by
  show FloatOps.matmul dot_S15000x64_S64x64_S15000x64_1_0_0_1_n_n none a w (constant (F := Ideal) S15000x64 .f32 0x00000000#32) (ix2 p q) = _
  rw [Ideal.matmul_constant_zero_apply, ← Equiv.sum_comp (ValueIdx.contrEquiv1 dot_S15000x64_S64x64_S15000x64_1_0_0_1_n_n 64 rfl rfl).symm]
  refine Finset.sum_congr rfl fun k _ => ?_
  have hk := ValueIdx.contrEquiv1_symm_val dot_S15000x64_S64x64_S15000x64_1_0_0_1_n_n 64 rfl rfl k
  have el : dot_S15000x64_S64x64_S15000x64_1_0_0_1_n_n.lhsIdx (ix2 p q) ((ValueIdx.contrEquiv1 dot_S15000x64_S64x64_S15000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S15000x64_S64x64_S15000x64_1_0_0_1_n_n.rhsIdx (ix2 p q) ((ValueIdx.contrEquiv1 dot_S15000x64_S64x64_S15000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

/-! ## The same with the one-column weight matrix of the final linear map -/

theorem lhs_col_0 (i : S15000x1.Idx) (q : dot_S15000x64_S64x1_S15000x1_1_0_0_1_n_n.contr.Idx) :
    (dot_S15000x64_S64x1_S15000x1_1_0_0_1_n_n.lhsIdx i q 0).val = (i 0).val := by
  unfold DotDims.lhsIdx
  rw [dif_neg (show ¬(0 : Fin S15000x64.rank) ∈ dot_S15000x64_S64x1_S15000x1_1_0_0_1_n_n.lhsBatch by decide), dif_pos (show (0 : Fin S15000x64.rank) ∈ dot_S15000x64_S64x1_S15000x1_1_0_0_1_n_n.lhsNonContracting by decide)]
  rfl
theorem lhs_col_1 (i : S15000x1.Idx) (q : dot_S15000x64_S64x1_S15000x1_1_0_0_1_n_n.contr.Idx) :
    (dot_S15000x64_S64x1_S15000x1_1_0_0_1_n_n.lhsIdx i q 1).val = (q ⟨0, by decide⟩).val :=
  dot_S15000x64_S64x1_S15000x1_1_0_0_1_n_n.lhsIdx_val_of_single rfl i q
theorem rhs_col_0 (i : S15000x1.Idx) (q : dot_S15000x64_S64x1_S15000x1_1_0_0_1_n_n.contr.Idx) :
    (dot_S15000x64_S64x1_S15000x1_1_0_0_1_n_n.rhsIdx i q 0).val = (q ⟨0, by decide⟩).val :=
  dot_S15000x64_S64x1_S15000x1_1_0_0_1_n_n.rhsIdx_val_of_single rfl i q
theorem rhs_col_1 (i : S15000x1.Idx) (q : dot_S15000x64_S64x1_S15000x1_1_0_0_1_n_n.contr.Idx) :
    (dot_S15000x64_S64x1_S15000x1_1_0_0_1_n_n.rhsIdx i q 1).val = (i 1).val := by
  unfold DotDims.rhsIdx
  rw [dif_neg (show ¬(1 : Fin S64x1.rank) ∈ dot_S15000x64_S64x1_S15000x1_1_0_0_1_n_n.rhsBatch by decide), dif_pos (show (1 : Fin S64x1.rank) ∈ dot_S15000x64_S64x1_S15000x1_1_0_0_1_n_n.rhsNonContracting by decide)]
  rfl

/-- Rows times a 64 × 1 matrix into the zero accumulator: entry (p, q) is the sum over k of a[p,k] · w[k,q]. -/
theorem matmul_col_apply (a : FVec Ideal S15000x64 .f32) (w : FVec Ideal S64x1 .f32) (p : Fin 15000) (q : Fin 1) :
    matmul (F := Ideal) dot_S15000x64_S64x1_S15000x1_1_0_0_1_n_n none a w (constant (F := Ideal) S15000x1 .f32 0x00000000#32) (ix2 p q)
      = ∑ k : Fin 64, a (ix2 p k) * w (ix2 k q) := by
  show FloatOps.matmul dot_S15000x64_S64x1_S15000x1_1_0_0_1_n_n none a w (constant (F := Ideal) S15000x1 .f32 0x00000000#32) (ix2 p q) = _
  rw [Ideal.matmul_constant_zero_apply, ← Equiv.sum_comp (ValueIdx.contrEquiv1 dot_S15000x64_S64x1_S15000x1_1_0_0_1_n_n 64 rfl rfl).symm]
  refine Finset.sum_congr rfl fun k _ => ?_
  have hk := ValueIdx.contrEquiv1_symm_val dot_S15000x64_S64x1_S15000x1_1_0_0_1_n_n 64 rfl rfl k
  have el : dot_S15000x64_S64x1_S15000x1_1_0_0_1_n_n.lhsIdx (ix2 p q) ((ValueIdx.contrEquiv1 dot_S15000x64_S64x1_S15000x1_1_0_0_1_n_n 64 rfl rfl).symm k) = ix2 p k := funext fun a => Fin.ext (by
    match a with
    | ⟨0, _⟩ => exact lhs_col_0 _ _
    | ⟨1, _⟩ => exact (lhs_col_1 _ _).trans hk)
  have er : dot_S15000x64_S64x1_S15000x1_1_0_0_1_n_n.rhsIdx (ix2 p q) ((ValueIdx.contrEquiv1 dot_S15000x64_S64x1_S15000x1_1_0_0_1_n_n 64 rfl rfl).symm k) = ix2 k q := funext fun a => Fin.ext (by
    match a with
    | ⟨0, _⟩ => exact (rhs_col_0 _ _).trans hk
    | ⟨1, _⟩ => exact rhs_col_1 _ _)
  rw [el, er]

/-! ## The broadcasts -/

/-- A bias laid along every row: [n] → [1, n] → [m, n] read at (p, q) is the bias at q. -/
theorem bias_rows_apply {m n : Nat} (b : (⟨1, ![n]⟩ : Shape).Idx → EReal) (h1 : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b h1) hb (ix2 p q) = b (ix1 q) :=
  (broadcastTo_1b_ab_apply _ hb p q).trans (shapeCast_a_1a_apply b h1 0 q)

/-- A column laid along every column: [m, 1] → [m, n] read at (p, q) is the column at (p, 0). -/
theorem column_apply {m n : Nat} (v : (⟨2, ![m, 1]⟩ : Shape).Idx → EReal) (h : (⟨2, ![m, 1]⟩ : Shape).Broadcasts ⟨2, ![m, n]⟩)
    (hm : m ≠ 1) (p : Fin m) (q : Fin n) : broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    rw [if_neg hm]
  | ⟨1, _⟩ => rfl

/-! ## The body's three layers at an entry -/

/-- The mean-aggregation layer on a block of rows: entry (p, q). -/
theorem sage_block_apply (agg : FVec Ideal S15000x64 .f32) (cnt : FVec Ideal S15000x1 .f32) (Wl : FVec Ideal S64x64 .f32) (bl : FVec Ideal S64 .f32)
    (xdst : FVec Ideal S15000x64 .f32) (Wr : FVec Ideal S64x64 .f32) (p : Fin 15000) (q : Fin 64) :
    maximumf (F := Ideal)
        (addf (F := Ideal)
          (addf (F := Ideal)
            (matmul (F := Ideal) dot_S15000x64_S64x64_S15000x64_1_0_0_1_n_n none
              (divf (F := Ideal) (shapeCast S15000x64 agg shapeCasts_S15000x64_S15000x64)
                (broadcastTo S15000x64 (shapeCast S15000x1 cnt shapeCasts_S15000x1_S15000x1) broadcasts_S15000x1_S15000x64))
              Wl (constant (F := Ideal) S15000x64 .f32 0x00000000#32))
            (broadcastTo S15000x64 (shapeCast S1x64 bl shapeCasts_S64_S1x64) broadcasts_S1x64_S15000x64))
          (matmul (F := Ideal) dot_S15000x64_S64x64_S15000x64_1_0_0_1_n_n none (shapeCast S15000x64 xdst shapeCasts_S15000x64_S15000x64) Wr
            (constant (F := Ideal) S15000x64 .f32 0x00000000#32)))
        (broadcast S15000x64 (Scalar.ofBits (F := Ideal) .f32 0x00000000#32)) (ix2 p q)
      = Cert.Spec.sage agg xdst cnt Wl bl Wr (ix2 p q) := by
  rw [shapeCast_self, shapeCast_self, shapeCast_self]
  show max (((matmul (F := Ideal) dot_S15000x64_S64x64_S15000x64_1_0_0_1_n_n none _ Wl (constant (F := Ideal) S15000x64 .f32 0x00000000#32) (ix2 p q))
      + (broadcastTo S15000x64 (shapeCast S1x64 bl shapeCasts_S64_S1x64) broadcasts_S1x64_S15000x64 (ix2 p q)))
      + (matmul (F := Ideal) dot_S15000x64_S64x64_S15000x64_1_0_0_1_n_n none xdst Wr (constant (F := Ideal) S15000x64 .f32 0x00000000#32) (ix2 p q))) Cert.Spec.z32
    = max (((∑ k : Fin 64, Ideal.div (agg (ix2 p k)) (cnt (ix2 p 0)) * Wl (ix2 k q)) + bl (ix1 q)) + ∑ k : Fin 64, xdst (ix2 p k) * Wr (ix2 k q)) Cert.Spec.z32
  rw [matmul_sq_apply, matmul_sq_apply, bias_rows_apply]
  refine congrArg (fun s => max ((s + bl (ix1 q)) + ∑ k : Fin 64, xdst (ix2 p k) * Wr (ix2 k q)) Cert.Spec.z32) (Finset.sum_congr rfl fun k _ => ?_)
  refine congrArg (fun d => Ideal.div (agg (ix2 p k)) d * Wl (ix2 k q)) ?_
  exact column_apply cnt broadcasts_S15000x1_S15000x64 (by decide) p k

/-- A hidden layer on a block of rows: entry (p, q). -/
theorem hidden_block_apply (h : FVec Ideal S15000x64 .f32) (W : FVec Ideal S64x64 .f32) (b : FVec Ideal S64 .f32) (p : Fin 15000) (q : Fin 64) :
    maximumf (F := Ideal)
        (addf (F := Ideal) (matmul (F := Ideal) dot_S15000x64_S64x64_S15000x64_1_0_0_1_n_n none h W (constant (F := Ideal) S15000x64 .f32 0x00000000#32))
          (broadcastTo S15000x64 (shapeCast S1x64 b shapeCasts_S64_S1x64) broadcasts_S1x64_S15000x64))
        (broadcast S15000x64 (Scalar.ofBits (F := Ideal) .f32 0x00000000#32)) (ix2 p q)
      = max ((∑ k : Fin 64, h (ix2 p k) * W (ix2 k q)) + b (ix1 q)) Cert.Spec.z32 := by
  show max ((matmul (F := Ideal) dot_S15000x64_S64x64_S15000x64_1_0_0_1_n_n none h W (constant (F := Ideal) S15000x64 .f32 0x00000000#32) (ix2 p q))
      + (broadcastTo S15000x64 (shapeCast S1x64 b shapeCasts_S64_S1x64) broadcasts_S1x64_S15000x64 (ix2 p q))) Cert.Spec.z32 = _
  rw [matmul_sq_apply, bias_rows_apply]

/-- The final linear map on a block of rows: entry (p, q) of the one column. -/
theorem final_block_apply (h : FVec Ideal S15000x64 .f32) (W : FVec Ideal S64x1 .f32) (b : FVec Ideal S1 .f32) (p : Fin 15000) (q : Fin 1) :
    addf (F := Ideal) (matmul (F := Ideal) dot_S15000x64_S64x1_S15000x1_1_0_0_1_n_n none h W (constant (F := Ideal) S15000x1 .f32 0x00000000#32))
        (broadcastTo S15000x1 (shapeCast S1x1 b shapeCasts_S1_S1x1) broadcasts_S1x1_S15000x1) (ix2 p q)
      = (∑ k : Fin 64, h (ix2 p k) * W (ix2 k q)) + b (ix1 q) := by
  show (matmul (F := Ideal) dot_S15000x64_S64x1_S15000x1_1_0_0_1_n_n none h W (constant (F := Ideal) S15000x1 .f32 0x00000000#32) (ix2 p q))
      + (broadcastTo S15000x1 (shapeCast S1x1 b shapeCasts_S1_S1x1) broadcasts_S1x1_S15000x1 (ix2 p q)) = _
  rw [matmul_col_apply, bias_rows_apply]

/-- THE BODY at an entry of its block: the head of the blocks it loaded. -/
theorem payload_apply (agg : Vec Ideal S15000x64 .f32) (cnt : Vec Ideal S15000x1 .f32) (Wl : Vec Ideal S64x64 .f32) (bl : Vec Ideal S64 .f32)
    (xdst : Vec Ideal S15000x64 .f32) (Wr : Vec Ideal S64x64 .f32) (W1 : Vec Ideal S64x64 .f32) (b1 : Vec Ideal S64 .f32)
    (W2 : Vec Ideal S64x1 .f32) (b2 : Vec Ideal S1 .f32) (p : Fin 15000) (q : Fin 1) :
    k3_pay1 (F := Ideal) agg cnt Wl bl xdst Wr W1 b1 W2 b2 (ix2 p q) = Cert.Spec.head agg xdst cnt Wl bl Wr W1 b1 W2 b2 (ix2 p q) := by
  unfold k3_pay1
  refine (final_block_apply _ W2 b2 p q).trans ?_
  show _ = (∑ k : Fin 64, Cert.Spec.hidden (Cert.Spec.sage agg xdst cnt Wl bl Wr) W1 b1 (ix2 p k) * W2 (ix2 k q)) + b2 (ix1 q)
  refine congrArg (· + b2 (ix1 q)) (Finset.sum_congr rfl fun k _ => congrArg (· * W2 (ix2 k q)) ?_)
  refine (hidden_block_apply _ W1 b1 p k).trans ?_
  show _ = max ((∑ j : Fin 64, Cert.Spec.sage agg xdst cnt Wl bl Wr (ix2 p j) * W1 (ix2 j k)) + b1 (ix1 k)) Cert.Spec.z32
  refine congrArg (fun s => max (s + b1 (ix1 k)) Cert.Spec.z32) (Finset.sum_congr rfl fun j _ => congrArg (· * W1 (ix2 j k)) ?_)
  exact sage_block_apply agg cnt Wl bl xdst Wr p j

/-! ## From the blocks to the array -/

section Blocks

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The head only looks along a row: if row p of the blocks is the arrays' row of the index i, entry p of the head of the
    blocks is entry i of the head of the arrays. -/
theorem head_row {n N : Nat} (a0 a1 : (⟨2, ![n, 64]⟩ : Shape).Idx → EReal) (a2 : (⟨2, ![n, 1]⟩ : Shape).Idx → EReal)
    (A0 A1 : (⟨2, ![N, 64]⟩ : Shape).Idx → EReal) (A2 : (⟨2, ![N, 1]⟩ : Shape).Idx → EReal)
    (Wl : (⟨2, ![64, 64]⟩ : Shape).Idx → EReal) (bl : (⟨1, ![64]⟩ : Shape).Idx → EReal) (Wr : (⟨2, ![64, 64]⟩ : Shape).Idx → EReal)
    (W1 : (⟨2, ![64, 64]⟩ : Shape).Idx → EReal) (b1 : (⟨1, ![64]⟩ : Shape).Idx → EReal) (W2 : (⟨2, ![64, 1]⟩ : Shape).Idx → EReal)
    (b2 : (⟨1, ![1]⟩ : Shape).Idx → EReal) (p : Fin n) (q : Fin 1) (i : (⟨2, ![N, 1]⟩ : Shape).Idx)
    (h0 : ∀ k, a0 (ix2 p k) = A0 (ix2 (i 0) k)) (h1 : ∀ k, a1 (ix2 p k) = A1 (ix2 (i 0) k)) (h2 : a2 (ix2 p 0) = A2 (ix2 (i 0) 0)) :
    Cert.Spec.head a0 a1 a2 Wl bl Wr W1 b1 W2 b2 (ix2 p q) = Cert.Spec.head A0 A1 A2 Wl bl Wr W1 b1 W2 b2 i := by
  obtain rfl : q = i 1 := Subsingleton.elim _ _
  show (∑ k : Fin 64, max ((∑ j : Fin 64, max (((∑ l : Fin 64, Ideal.div (a0 (ix2 p l)) (a2 (ix2 p 0)) * Wl (ix2 l j)) + bl (ix1 j))
        + ∑ l : Fin 64, a1 (ix2 p l) * Wr (ix2 l j)) Cert.Spec.z32 * W1 (ix2 j k)) + b1 (ix1 k)) Cert.Spec.z32 * W2 (ix2 k (i 1))) + b2 (ix1 (i 1))
    = (∑ k : Fin 64, max ((∑ j : Fin 64, max (((∑ l : Fin 64, Ideal.div (A0 (ix2 (i 0) l)) (A2 (ix2 (i 0) 0)) * Wl (ix2 l j)) + bl (ix1 j))
        + ∑ l : Fin 64, A1 (ix2 (i 0) l) * Wr (ix2 l j)) Cert.Spec.z32 * W1 (ix2 j k)) + b1 (ix1 k)) Cert.Spec.z32 * W2 (ix2 k (i 1))) + b2 (ix1 (i 1))
  simp only [h0, h1, h2]

/-! The index maps, decided over the 20 grid points: the three row windows move with the output window, whose block
    index is the point; every weight and bias window stays at block 0. -/

theorem idx_out : ∀ t : Fin cfg3.N, win3_10.index t (0 : Fin 2) = t.val ∧ win3_10.index t (1 : Fin 2) = 0 :=
  (by decide +kernel : ∀ t : Fin grid3.N, _)
theorem idx_agg : ∀ t : Fin cfg3.N, win3_0.index t (0 : Fin 2) = win3_10.index t (0 : Fin 2) ∧ win3_0.index t (1 : Fin 2) = 0 :=
  (by decide +kernel : ∀ t : Fin grid3.N, _)
theorem idx_xdst : ∀ t : Fin cfg3.N, win3_1.index t (0 : Fin 2) = win3_10.index t (0 : Fin 2) ∧ win3_1.index t (1 : Fin 2) = 0 :=
  (by decide +kernel : ∀ t : Fin grid3.N, _)
theorem idx_cnt : ∀ t : Fin cfg3.N, win3_2.index t (0 : Fin 2) = win3_10.index t (0 : Fin 2) ∧ win3_2.index t (1 : Fin 2) = 0 :=
  (by decide +kernel : ∀ t : Fin grid3.N, _)
theorem idx_Wl : ∀ t : Fin cfg3.N, win3_3.index t (0 : Fin 2) = 0 ∧ win3_3.index t (1 : Fin 2) = 0 :=
  (by decide +kernel : ∀ t : Fin grid3.N, _)
theorem idx_bl : ∀ t : Fin cfg3.N, win3_4.index t (0 : Fin 1) = 0 :=
  (by decide +kernel : ∀ t : Fin grid3.N, _)
theorem idx_Wr : ∀ t : Fin cfg3.N, win3_5.index t (0 : Fin 2) = 0 ∧ win3_5.index t (1 : Fin 2) = 0 :=
  (by decide +kernel : ∀ t : Fin grid3.N, _)
theorem idx_W1 : ∀ t : Fin cfg3.N, win3_6.index t (0 : Fin 2) = 0 ∧ win3_6.index t (1 : Fin 2) = 0 :=
  (by decide +kernel : ∀ t : Fin grid3.N, _)
theorem idx_b1 : ∀ t : Fin cfg3.N, win3_7.index t (0 : Fin 1) = 0 :=
  (by decide +kernel : ∀ t : Fin grid3.N, _)
theorem idx_W2 : ∀ t : Fin cfg3.N, win3_8.index t (0 : Fin 2) = 0 ∧ win3_8.index t (1 : Fin 2) = 0 :=
  (by decide +kernel : ∀ t : Fin grid3.N, _)
theorem idx_b2 : ∀ t : Fin cfg3.N, win3_9.index t (0 : Fin 1) = 0 :=
  (by decide +kernel : ∀ t : Fin grid3.N, _)

variable (c : Dev nD) (t : Fin cfg3.N)

/-! Each block read where the output's block says.  A row window's row p is the array's row under row p of the output's
    block; a weight or bias window's block is the whole array. -/

theorem agg_block (p : Fin 15000) (q : Fin 1) (k : Fin 64) :
    iblk3 V c 0 t (ix2 p k) = V c main_v25 (ix2 ((((cfg3.win 10).blk t).view.emb (ix2 p q)) 0) k) := by
  show V c main_v25 (((cfg3.win 0).blk t).view.emb (ix2 p k)) = _
  refine congrArg (V c main_v25) (funext fun a => Fin.ext ?_)
  obtain ⟨e0, e1⟩ := idx_agg t
  match a with
  | ⟨0, _⟩ => show win3_0.index t (0 : Fin 2) * 15000 + 1 * p.val = win3_10.index t (0 : Fin 2) * 15000 + 1 * p.val; omega
  | ⟨1, _⟩ => show win3_0.index t (1 : Fin 2) * 64 + 1 * k.val = k.val; omega

theorem xdst_block (p : Fin 15000) (q : Fin 1) (k : Fin 64) :
    iblk3 V c 1 t (ix2 p k) = V c main_v16 (ix2 ((((cfg3.win 10).blk t).view.emb (ix2 p q)) 0) k) := by
  show V c main_v16 (((cfg3.win 1).blk t).view.emb (ix2 p k)) = _
  refine congrArg (V c main_v16) (funext fun a => Fin.ext ?_)
  obtain ⟨e0, e1⟩ := idx_xdst t
  match a with
  | ⟨0, _⟩ => show win3_1.index t (0 : Fin 2) * 15000 + 1 * p.val = win3_10.index t (0 : Fin 2) * 15000 + 1 * p.val; omega
  | ⟨1, _⟩ => show win3_1.index t (1 : Fin 2) * 64 + 1 * k.val = k.val; omega

theorem cnt_block (p : Fin 15000) (q : Fin 1) :
    iblk3 V c 2 t (ix2 p (0 : Fin 1)) = V c main_v5 (ix2 ((((cfg3.win 10).blk t).view.emb (ix2 p q)) 0) (0 : Fin 1)) := by
  show V c main_v5 (((cfg3.win 2).blk t).view.emb (ix2 p (0 : Fin 1))) = _
  refine congrArg (V c main_v5) (funext fun a => Fin.ext ?_)
  obtain ⟨e0, e1⟩ := idx_cnt t
  match a with
  | ⟨0, _⟩ => show win3_2.index t (0 : Fin 2) * 15000 + 1 * p.val = win3_10.index t (0 : Fin 2) * 15000 + 1 * p.val; omega
  | ⟨1, _⟩ => show win3_2.index t (1 : Fin 2) * 1 + 1 * 0 = 0; omega

theorem Wl_block : iblk3 V c 3 t = V c main_arg10 := by
  funext y
  show V c main_arg10 (((cfg3.win 3).blk t).view.emb y) = _
  refine congrArg (V c main_arg10) (funext fun a => Fin.ext ?_)
  obtain ⟨e0, e1⟩ := idx_Wl t
  match a with
  | ⟨0, _⟩ => show win3_3.index t (0 : Fin 2) * 64 + 1 * (y 0).val = (y 0).val; omega
  | ⟨1, _⟩ => show win3_3.index t (1 : Fin 2) * 64 + 1 * (y 1).val = (y 1).val; omega

theorem bl_block : iblk3 V c 4 t = V c main_arg11 := by
  funext y
  show V c main_arg11 (((cfg3.win 4).blk t).view.emb y) = _
  refine congrArg (V c main_arg11) (funext fun a => Fin.ext ?_)
  have e0 := idx_bl t
  match a with
  | ⟨0, _⟩ => show win3_4.index t (0 : Fin 1) * 64 + 1 * (y 0).val = (y 0).val; omega

theorem Wr_block : iblk3 V c 5 t = V c main_arg12 := by
  funext y
  show V c main_arg12 (((cfg3.win 5).blk t).view.emb y) = _
  refine congrArg (V c main_arg12) (funext fun a => Fin.ext ?_)
  obtain ⟨e0, e1⟩ := idx_Wr t
  match a with
  | ⟨0, _⟩ => show win3_5.index t (0 : Fin 2) * 64 + 1 * (y 0).val = (y 0).val; omega
  | ⟨1, _⟩ => show win3_5.index t (1 : Fin 2) * 64 + 1 * (y 1).val = (y 1).val; omega

theorem W1_block : iblk3 V c 6 t = V c main_arg16 := by
  funext y
  show V c main_arg16 (((cfg3.win 6).blk t).view.emb y) = _
  refine congrArg (V c main_arg16) (funext fun a => Fin.ext ?_)
  obtain ⟨e0, e1⟩ := idx_W1 t
  match a with
  | ⟨0, _⟩ => show win3_6.index t (0 : Fin 2) * 64 + 1 * (y 0).val = (y 0).val; omega
  | ⟨1, _⟩ => show win3_6.index t (1 : Fin 2) * 64 + 1 * (y 1).val = (y 1).val; omega

theorem b1_block : iblk3 V c 7 t = V c main_arg17 := by
  funext y
  show V c main_arg17 (((cfg3.win 7).blk t).view.emb y) = _
  refine congrArg (V c main_arg17) (funext fun a => Fin.ext ?_)
  have e0 := idx_b1 t
  match a with
  | ⟨0, _⟩ => show win3_7.index t (0 : Fin 1) * 64 + 1 * (y 0).val = (y 0).val; omega

theorem W2_block : iblk3 V c 8 t = V c main_arg18 := by
  funext y
  show V c main_arg18 (((cfg3.win 8).blk t).view.emb y) = _
  refine congrArg (V c main_arg18) (funext fun a => Fin.ext ?_)
  obtain ⟨e0, e1⟩ := idx_W2 t
  match a with
  | ⟨0, _⟩ => show win3_8.index t (0 : Fin 2) * 64 + 1 * (y 0).val = (y 0).val; omega
  | ⟨1, _⟩ => show win3_8.index t (1 : Fin 2) * 1 + 1 * (y 1).val = (y 1).val; omega

theorem b2_block : iblk3 V c 9 t = V c main_arg19 := by
  funext y
  show V c main_arg19 (((cfg3.win 9).blk t).view.emb y) = _
  refine congrArg (V c main_arg19) (funext fun a => Fin.ext ?_)
  have e0 := idx_b2 t
  match a with
  | ⟨0, _⟩ => show win3_9.index t (0 : Fin 1) * 1 + 1 * (y 0).val = (y 0).val; omega

/-- WHAT POINT t WRITES BACK is block t of the head of the arrays the region found. -/
theorem written_block :
    (dat3 (F := Ideal) V c).flushed 10 t
      = ((cfg3.win 10).blk t).view.read (Elt Ideal) (Cert.Spec.head (V c main_v25) (V c main_v16) (V c main_v5) (V c main_arg10) (V c main_arg11) (V c main_arg12) (V c main_arg16) (V c main_arg17) (V c main_arg18) (V c main_arg19)) := by
  show (cfg3.win 10).cut (grid3.coords t) ((dat3 V c).after 10 t) = _
  rw [after3_10]
  unfold out3_10
  rw [View.canon_unit_zero hz2]
  simp only [View.ld_unit_zero (S := S15000x64) hz2, View.ld_unit_zero (S := S15000x1) hz2, View.ld_unit_zero (S := S64x64) hz2,
    View.ld_unit_zero (S := S64) hz1, View.ld_unit_zero (S := S64x1) hz2, View.ld_unit_zero (S := S1) hz1]
  rw [Wl_block V c t, bl_block V c t, Wr_block V c t, W1_block V c t, b1_block V c t, W2_block V c t, b2_block V c t]
  funext j
  obtain ⟨p, q, rfl⟩ : ∃ (p : Fin 15000) (q : Fin 1), j = ix2 p q := ⟨j 0, j 1, eq_ix2 j⟩
  show k3_pay1 (F := Ideal) (iblk3 V c 0 t) (iblk3 V c 2 t) (V c main_arg10) (V c main_arg11) (iblk3 V c 1 t) (V c main_arg12) (V c main_arg16) (V c main_arg17) (V c main_arg18) (V c main_arg19) (ix2 p q)
    = Cert.Spec.head (V c main_v25) (V c main_v16) (V c main_v5) (V c main_arg10) (V c main_arg11) (V c main_arg12) (V c main_arg16) (V c main_arg17) (V c main_arg18) (V c main_arg19) (((cfg3.win 10).blk t).view.emb (ix2 p q))
  refine (payload_apply _ _ _ _ _ _ _ _ _ _ p q).trans ?_
  exact head_row (n := 15000) (N := 300000) _ _ _ _ _ _ _ _ _ _ _ _ _ p q (((cfg3.win 10).blk t).view.emb (ix2 p q))
    (fun k => agg_block V c t p q k) (fun k => xdst_block V c t p q k) (cnt_block V c t p q)

end Blocks

/-! ## The blocks fill the array -/

/-- An index of the result is in point t's block iff each coordinate is in the block's range on its axis. -/
theorem mem_block (t : Fin cfg3.N) (i : S300000x1.Idx) :
    i ∈ ((cfg3.win 10).blk t).view.set ↔ ∀ a : Fin 2, win3_10.index t a * S15000x1.size a ≤ (i a).val ∧ (i a).val < win3_10.index t a * S15000x1.size a + S15000x1.size a := by
  show i ∈ ((View.whole main_v26).slice (win3_10.rect t)).set ↔ _
  rw [View.set_slice_whole, Rect.mem_set_unit]
  exact Iff.rfl

/-- Row r lies in block r / 15000, and every block holds the one column. -/
theorem blocks_cover (i : S300000x1.Idx) :
    ∃ t : Fin cfg3.N, (cfg3.win 10).flush t = true ∧ i ∈ ((cfg3.win 10).blk t).view.set := by
  have hi0 : (i 0).val < 300000 := (i 0).isLt
  have hi1 : (i 1).val < 1 := (i 1).isLt
  have hN : cfg3.N = 20 := rfl
  obtain ⟨t, ht⟩ : ∃ t : Fin cfg3.N, t.val = (i 0).val / 15000 := ⟨⟨(i 0).val / 15000, by omega⟩, rfl⟩
  obtain ⟨e0, e1⟩ := idx_out t
  refine ⟨t, flush3_10 t, ?_⟩
  rw [mem_block]
  intro a
  match a with
  | ⟨0, _⟩ =>
    show win3_10.index t (0 : Fin 2) * 15000 ≤ (i 0).val ∧ (i 0).val < win3_10.index t (0 : Fin 2) * 15000 + 15000
    omega
  | ⟨1, _⟩ =>
    show win3_10.index t (1 : Fin 2) * 1 ≤ (i 1).val ∧ (i 1).val < win3_10.index t (1 : Fin 2) * 1 + 1
    omega

/-! ## The array the region leaves -/

/-- After the twenty blocks the result array is the head of the arrays as the region found them. -/
theorem value (V : (c : Dev nD) → (b : Ref sig .tc) → Buf (Elt Ideal) ((c : Thread nD τ).loc b)) (c : Dev nD) :
    (dat3 (F := Ideal) V c).arrAt 10 cfg3.N = Cert.Spec.head (V c main_v25) (V c main_v16) (V c main_v5) (V c main_arg10) (V c main_arg11) (V c main_arg12) (V c main_arg16) (V c main_arg17) (V c main_arg18) (V c main_arg19) :=
  (dat3 (F := Ideal) V c).arrAt_eq_of_cover 10 (Cert.Spec.head (V c main_v25) (V c main_v16) (V c main_v5) (V c main_arg10) (V c main_arg11) (V c main_arg12) (V c main_arg16) (V c main_arg17) (V c main_arg18) (V c main_arg19))
    (fun t _ => written_block V c t) blocks_cover

end Cert.KernelIdeal.Region3

end
-- ==== Proof.Chain.lean ====
/-
  The idealized kernel program's result as one composition of the network's layers.

  The program runs eleven stretches of host operations and four kernel regions.  Its buffer contents at each boundary are
  a fold from the launch memory: a host stretch applies its operations, a region replaces its output array by what the
  kernel writes and leaves every other buffer alone.  Reading that fold at the buffers that matter gives: the neighbour
  counts; the projected author features; for each layer the edge rows gathered from the source table (with a fill for
  out-of-range rows), summed into their destination, and passed through the dense layer.  With every edge index in range
  the fill never applies and each gather is the plain row gather.
-/
import proofs.«419581_j87247965651651_3_alg».proof.Proof.KernelRun
import proofs.«419581_j87247965651651_3_alg».proof.Proof.Spec
import proofs.«419581_j87247965651651_3_alg».proof.Proof.Take
import proofs.«419581_j87247965651651_3_alg».proof.Proof.Region0
import proofs.«419581_j87247965651651_3_alg».proof.Proof.Region1
import proofs.«419581_j87247965651651_3_alg».proof.Proof.Region2
import proofs.«419581_j87247965651651_3_alg».proof.Proof.Region3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Evaluate a host stretch at a literal buffer: each operation's result at its own buffer, every other buffer as before. -/
macro "host_eval" : tactic => `(tactic| (
  dsimp only [W1, W2, W3, W4, W5, W7, W8, W10, W11, W13, W14, V5, V6, V8, V9, V11, V12, V14, V15, hostOps0, hostOps0_1, hostOps0_2, hostOps0_3, hostOps0_4, hostOps1, hostOps1_1, hostOps2, hostOps2_1, hostOps3, hostOps3_1]
  try after_results_simp))

/-! ## Contents at a buffer's own type and at the value's type are the same contents -/

/-- Contents carried to a buffer's own type and back are the contents. -/
theorem ofBuf_toBuf {T : BufTy} {Val : EltTy → Type} (x : TRef sig T) (v : T.Contents Val) : x.ofBuf (x.toBuf v) = v := by
  obtain ⟨r, rfl, _, _⟩ := x; rfl

theorem ofBuf_arg20 (h1 h2 h3) (v : IVec S1000000 32) :
    (TRef.of main_arg20 h1 h2 h3 : TRef sig ⟨S1000000, .i32⟩).ofBuf (Val := Elt F) v = v := rfl
theorem ofBuf_arg21 (h1 h2 h3) (v : IVec S1000000 32) :
    (TRef.of main_arg21 h1 h2 h3 : TRef sig ⟨S1000000, .i32⟩).ofBuf (Val := Elt F) v = v := rfl
theorem ofBuf_arg1 (h1 h2 h3) (v : FVec F S300000x64 .f32) :
    (TRef.of main_arg1 h1 h2 h3 : TRef sig ⟨S300000x64, .f32⟩).ofBuf (Val := Elt F) v = v := rfl
theorem ofBuf_v11 (h1 h2 h3) (v : FVec F S100000x64 .f32) :
    (TRef.of main_v11 h1 h2 h3 : TRef sig ⟨S100000x64, .f32⟩).ofBuf (Val := Elt F) v = v := rfl
theorem ofBuf_v21 (h1 h2 h3) (v : FVec F S100000x64 .f32) :
    (TRef.of main_v21 h1 h2 h3 : TRef sig ⟨S100000x64, .f32⟩).ofBuf (Val := Elt F) v = v := rfl
theorem toBuf_v12 (h1 h2 h3) (v : FVec F S1000000x64 .f32) :
    (TRef.of main_v12 h1 h2 h3 : TRef sig ⟨S1000000x64, .f32⟩).toBuf (Val := Elt F) v = v := rfl
theorem toBuf_v17 (h1 h2 h3) (v : FVec F S1000000x64 .f32) :
    (TRef.of main_v17 h1 h2 h3 : TRef sig ⟨S1000000x64, .f32⟩).toBuf (Val := Elt F) v = v := rfl
theorem toBuf_v22 (h1 h2 h3) (v : FVec F S1000000x64 .f32) :
    (TRef.of main_v22 h1 h2 h3 : TRef sig ⟨S1000000x64, .f32⟩).toBuf (Val := Elt F) v = v := rfl

/-- Drop the changes of type around the stretches' values. -/
macro "clean" : tactic => `(tactic| (
  simp only [ofBuf_toBuf, ofBuf_arg20, ofBuf_arg21, ofBuf_arg1, ofBuf_v11, ofBuf_v21, toBuf_v12, toBuf_v17, toBuf_v22]))

/-! ## A region leaves every buffer but its output array as it found it -/

theorem W6_keep (c : Dev nD) (b : Ref sig .tc) (hb : b ≠ main_v11) :
    W6 m ρ c (Proc.devRef .tc b) = W5 m ρ c (Proc.devRef .tc b) := by
  by_cases h : ∃ w, Pipeline.arrRef spec0 w = b
  · obtain ⟨w, rfl⟩ := h
    have hin : (cfg0.win w).isOut = false := by
      revert hb; fin_cases w <;> first | (intro _; rfl) | (intro hb; exact absurd rfl hb)
    exact (W6_arr m ρ c w).trans (((dat0 (V5 m ρ) c).arrAt_in w hin _).trans (A_eq0 (V5 m ρ) c w))
  · exact W6_of_ne m ρ c b (fun w e => h ⟨w, e⟩)

theorem W9_keep (c : Dev nD) (b : Ref sig .tc) (hb : b ≠ main_v16) :
    W9 m ρ c (Proc.devRef .tc b) = W8 m ρ c (Proc.devRef .tc b) := by
  by_cases h : ∃ w, Pipeline.arrRef spec1 w = b
  · obtain ⟨w, rfl⟩ := h
    have hin : (cfg1.win w).isOut = false := by
      revert hb; fin_cases w <;> first | (intro _; rfl) | (intro hb; exact absurd rfl hb)
    exact (W9_arr m ρ c w).trans (((dat1 (V8 m ρ) c).arrAt_in w hin _).trans (A_eq1 (V8 m ρ) c w))
  · exact W9_of_ne m ρ c b (fun w e => h ⟨w, e⟩)

theorem W12_keep (c : Dev nD) (b : Ref sig .tc) (hb : b ≠ main_v21) :
    W12 m ρ c (Proc.devRef .tc b) = W11 m ρ c (Proc.devRef .tc b) := by
  by_cases h : ∃ w, Pipeline.arrRef spec2 w = b
  · obtain ⟨w, rfl⟩ := h
    have hin : (cfg2.win w).isOut = false := by
      revert hb; fin_cases w <;> first | (intro _; rfl) | (intro hb; exact absurd rfl hb)
    exact (W12_arr m ρ c w).trans (((dat2 (V11 m ρ) c).arrAt_in w hin _).trans (A_eq2 (V11 m ρ) c w))
  · exact W12_of_ne m ρ c b (fun w e => h ⟨w, e⟩)

/-! ## The argument arrays at every boundary -/

/-- The arguments the program reads (the three weights of the unused second author layer are never read). -/
abbrev argRefs : List (Ref sig .tc) := [main_arg0, main_arg1, main_arg2, main_arg3, main_arg4, main_arg5, main_arg6, main_arg7, main_arg8, main_arg9, main_arg10, main_arg11, main_arg12, main_arg16, main_arg17, main_arg18, main_arg19, main_arg20, main_arg21]

theorem W5_args (c : Dev nD) : ∀ b ∈ argRefs, W5 m ρ c (Proc.devRef .tc b) = m ((c : Thread nD τ).loc b) := by
  intro b hb
  fin_cases hb <;> host_eval

theorem W6_args (c : Dev nD) : ∀ b ∈ argRefs, W6 m ρ c (Proc.devRef .tc b) = m ((c : Thread nD τ).loc b) := by
  intro b hb
  refine (W6_keep m ρ c b ?_).trans (W5_args m ρ c b hb)
  fin_cases hb <;> decide

theorem W8_args (c : Dev nD) : ∀ b ∈ argRefs, W8 m ρ c (Proc.devRef .tc b) = m ((c : Thread nD τ).loc b) := by
  intro b hb
  fin_cases hb <;> (host_eval; exact W6_args m ρ c _ (by decide))

theorem W9_args (c : Dev nD) : ∀ b ∈ argRefs, W9 m ρ c (Proc.devRef .tc b) = m ((c : Thread nD τ).loc b) := by
  intro b hb
  refine (W9_keep m ρ c b ?_).trans (W8_args m ρ c b hb)
  fin_cases hb <;> decide

theorem W11_args (c : Dev nD) : ∀ b ∈ argRefs, W11 m ρ c (Proc.devRef .tc b) = m ((c : Thread nD τ).loc b) := by
  intro b hb
  fin_cases hb <;> (host_eval; exact W9_args m ρ c _ (by decide))

theorem W12_args (c : Dev nD) : ∀ b ∈ argRefs, W12 m ρ c (Proc.devRef .tc b) = m ((c : Thread nD τ).loc b) := by
  intro b hb
  refine (W12_keep m ρ c b ?_).trans (W11_args m ρ c b hb)
  fin_cases hb <;> decide

theorem W14_args (c : Dev nD) : ∀ b ∈ argRefs, W14 m ρ c (Proc.devRef .tc b) = m ((c : Thread nD τ).loc b) := by
  intro b hb
  fin_cases hb <;> (host_eval; exact W12_args m ρ c _ (by decide))

/-! ## The host stretches' terms -/

/-- The index column a row gather from a table of `n` rows reads (`n` as a word). -/
abbrev col (nW : BitVec 32) (idx : IVec S1000000 32) : IVec S1000000x1 32 :=
  Take.normCol bcast_S_S1000000 bcast_S1000000_S1000000x1_0 nW idx

/-- Rows of an author-side table (100000 rows) gathered along the edges. -/
abbrev gatherA (x : FVec F S100000x64 .f32) (idx : IVec S1000000 32) : FVec F S1000000x64 .f32 :=
  Host.gather gather_S100000x64_S1000000x1_S1000000x64_1_0_n_n_0_1_164 x (col 100000#32 idx)

/-- Rows of a paper-side table (300000 rows) gathered along the edges. -/
abbrev gatherP (x : FVec F S300000x64 .f32) (idx : IVec S1000000 32) : FVec F S1000000x64 .f32 :=
  Host.gather gather_S300000x64_S1000000x1_S1000000x64_1_0_n_n_0_1_164 x (col 300000#32 idx)

/-- The fill of an out-of-range row. -/
abbrev fillRows : FVec F S1000000x64 .f32 := broadcastInDim S1000000x64 ![] bcast_S_S1000000x64 (constant S_ .f32 0x7FC00000#32)

/-- The range test `0 ≤ j e ≤ hi` along the edges. -/
abbrev inRange (nW hiW : BitVec 32) (idx : IVec S1000000 32) : IVec S1000000x64 1 :=
  Take.inRange bcast_S_S1000000 bcast_S1000000_S1000000x1_0 bcast_S_S1000000x1 bcast_S1_S1x1_1 bcast_S1x1_S1000000x1_0_1
    reducesTo_S1000000x1_S1000000_d1 h_S_ bcast_S1000000_S1000000x64_0 nW hiW idx

/-- The filled gather of author-side rows. -/
abbrev takeA (x : FVec F S100000x64 .f32) (idx : IVec S1000000 32) : FVec F S1000000x64 .f32 :=
  select (inRange 100000#32 99999#32 idx) (gatherA x idx) fillRows

/-- The filled gather of paper-side rows. -/
abbrev takeP (x : FVec F S300000x64 .f32) (idx : IVec S1000000 32) : FVec F S1000000x64 .f32 :=
  select (inRange 300000#32 299999#32 idx) (gatherP x idx) fillRows

/-- Edge rows summed into their paper (300000 segments). -/
abbrev segP (u : FVec F S1000000x64 .f32) (dst : IVec S1000000 32) : FVec F S300000x64 .f32 :=
  Host.scatterAdd scatter_S300000x64_S1000000x1_S1000000x64_1_0_0_1
    (broadcastInDim S300000x64 ![] bcast_S_S300000x64 (constant S_ .f32 0x00000000#32))
    (broadcastInDim S1000000x1 ![0] bcast_S1000000_S1000000x1_0 dst) u

/-- Edge rows summed into their author (100000 segments). -/
abbrev segA (u : FVec F S1000000x64 .f32) (src : IVec S1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 src) u

/-- The papers' neighbour counts, at least one, as a column. -/
abbrev cntP (dst : IVec S1000000 32) : FVec F S300000x1 .f32 :=
  broadcastInDim S300000x1 ![0] bcast_S300000_S300000x1_0
    (maximumf (broadcastInDim S300000 ![] bcast_S_S300000 (id (constant S_ .f32 0x3F800000#32)))
      (Host.scatterAdd scatter_S300000_S1000000x1_S1000000_n_0_0_1
        (broadcastInDim S300000 ![] bcast_S_S300000 (constant S_ .f32 0x00000000#32))
        (broadcastInDim S1000000x1 ![0] bcast_S1000000_S1000000x1_0 dst)
        (broadcastInDim S1000000 ![] bcast_S_S1000000 (constant S_ .f32 0x3F800000#32))))

/-- The authors' neighbour counts, at least one, as a column. -/
abbrev cntA (src : IVec S1000000 32) : FVec F S100000x1 .f32 :=
  broadcastInDim S100000x1 ![0] bcast_S100000_S100000x1_0
    (maximumf (broadcastInDim S100000 ![] bcast_S_S100000 (id (constant S_ .f32 0x3F800000#32)))
      (Host.scatterAdd scatter_S100000_S1000000x1_S1000000_n_0_0_1
        (broadcastInDim S100000 ![] bcast_S_S100000 (constant S_ .f32 0x00000000#32))
        (broadcastInDim S1000000x1 ![0] bcast_S1000000_S1000000x1_0 src)
        (broadcastInDim S1000000 ![] bcast_S_S1000000 (constant S_ .f32 0x3F800000#32))))

/-! ## The counts, at every boundary that reads them -/

theorem W5_cntP (c : Dev nD) : W5 m ρ c (Proc.devRef .tc main_v5) = cntP (m ((c : Thread nD τ).loc main_arg21)) := by
  host_eval; rfl
theorem W5_cntA (c : Dev nD) : W5 m ρ c (Proc.devRef .tc main_v10) = cntA (m ((c : Thread nD τ).loc main_arg20)) := by
  host_eval; rfl

theorem W8_cntP (c : Dev nD) : W8 m ρ c (Proc.devRef .tc main_v5) = cntP (m ((c : Thread nD τ).loc main_arg21)) := by
  host_eval; exact (W6_keep m ρ c _ (by decide)).trans (W5_cntP m ρ c)
theorem W8_cntA (c : Dev nD) : W8 m ρ c (Proc.devRef .tc main_v10) = cntA (m ((c : Thread nD τ).loc main_arg20)) := by
  host_eval; exact (W6_keep m ρ c _ (by decide)).trans (W5_cntA m ρ c)
theorem W11_cntP (c : Dev nD) : W11 m ρ c (Proc.devRef .tc main_v5) = cntP (m ((c : Thread nD τ).loc main_arg21)) := by
  host_eval; exact (W9_keep m ρ c _ (by decide)).trans (W8_cntP m ρ c)
theorem W11_cntA (c : Dev nD) : W11 m ρ c (Proc.devRef .tc main_v10) = cntA (m ((c : Thread nD τ).loc main_arg20)) := by
  host_eval; exact (W9_keep m ρ c _ (by decide)).trans (W8_cntA m ρ c)
theorem W14_cntP (c : Dev nD) : W14 m ρ c (Proc.devRef .tc main_v5) = cntP (m ((c : Thread nD τ).loc main_arg21)) := by
  host_eval; exact (W12_keep m ρ c _ (by decide)).trans (W11_cntP m ρ c)

/-! ## The regions' outputs carried to the boundaries that read them -/

theorem W8_v11 (c : Dev nD) : W8 m ρ c (Proc.devRef .tc main_v11) = W6 m ρ c (Proc.devRef .tc main_v11) := by
  host_eval
theorem W11_v11 (c : Dev nD) : W11 m ρ c (Proc.devRef .tc main_v11) = W6 m ρ c (Proc.devRef .tc main_v11) := by
  host_eval; exact (W9_keep m ρ c _ (by decide)).trans (W8_v11 m ρ c)
theorem W11_v16 (c : Dev nD) : W11 m ρ c (Proc.devRef .tc main_v16) = W9 m ρ c (Proc.devRef .tc main_v16) := by
  host_eval
theorem W14_v16 (c : Dev nD) : W14 m ρ c (Proc.devRef .tc main_v16) = W9 m ρ c (Proc.devRef .tc main_v16) := by
  host_eval; exact (W12_keep m ρ c _ (by decide)).trans (W11_v16 m ρ c)

/-! ## The three gather-and-sum stretches -/

theorem W8_agg (c : Dev nD) : W8 m ρ c (Proc.devRef .tc main_v15)
    = segP (takeA (W6 m ρ c (Proc.devRef .tc main_v11)) (W6 m ρ c (Proc.devRef .tc main_arg20))) (W6 m ρ c (Proc.devRef .tc main_arg21)) := by
  host_eval
  clean

theorem W11_agg (c : Dev nD) : W11 m ρ c (Proc.devRef .tc main_v20)
    = segA (takeP (W9 m ρ c (Proc.devRef .tc main_arg1)) (W9 m ρ c (Proc.devRef .tc main_arg21))) (W9 m ρ c (Proc.devRef .tc main_arg20)) := by
  host_eval
  clean

theorem W14_agg (c : Dev nD) : W14 m ρ c (Proc.devRef .tc main_v25)
    = segP (takeA (W12 m ρ c (Proc.devRef .tc main_v21)) (W12 m ρ c (Proc.devRef .tc main_arg20))) (W12 m ρ c (Proc.devRef .tc main_arg21)) := by
  host_eval
  clean

/-- With every index in range the filled gather of author-side rows is the plain gather. -/
theorem takeA_eq (x : FVec F S100000x64 .f32) (idx : IVec S1000000 32)
    (hidx : ∀ e, 0 ≤ (idx e).toInt ∧ (idx e).toInt ≤ (99999#32 : BitVec 32).toInt) : takeA x idx = gatherA x idx :=
  Take.filled_eq _ _ _ _ _ _ _ _ _ _ idx hidx _ _

/-- With every index in range the filled gather of paper-side rows is the plain gather. -/
theorem takeP_eq (x : FVec F S300000x64 .f32) (idx : IVec S1000000 32)
    (hidx : ∀ e, 0 ≤ (idx e).toInt ∧ (idx e).toInt ≤ (299999#32 : BitVec 32).toInt) : takeP x idx = gatherP x idx :=
  Take.filled_eq _ _ _ _ _ _ _ _ _ _ idx hidx _ _

/-! ## The network as a function of the argument arrays -/

section Network

variable (x0 : FVec Ideal S100000x128 .f32) (x1 : FVec Ideal S300000x64 .f32) (x2 : FVec Ideal S128x64 .f32) (x3 : FVec Ideal S64 .f32)
    (x4 : FVec Ideal S64x64 .f32) (x5 : FVec Ideal S64 .f32) (x6 x7 : FVec Ideal S64x64 .f32) (x8 : FVec Ideal S64 .f32) (x9 x10 : FVec Ideal S64x64 .f32)
    (x11 : FVec Ideal S64 .f32) (x12 x16 : FVec Ideal S64x64 .f32) (x17 : FVec Ideal S64 .f32) (x18 : FVec Ideal S64x1 .f32) (x19 : FVec Ideal S1 .f32)
    (x20 x21 : IVec S1000000 32)

/-- The projected author features. -/
abbrev netA0 : FVec Ideal S100000x64 .f32 := Cert.Spec.affine x0 x2 x3
/-- The first paper layer: author rows gathered by edge source, summed by edge destination. -/
abbrev netP1 : FVec Ideal S300000x64 .f32 :=
  Cert.Spec.sage (segP (gatherA (netA0 x0 x2 x3) x20) x21) x1 (cntP (F := Ideal) x21) x4 x5 x6
/-- The first author layer: paper rows gathered by edge destination, summed by edge source. -/
abbrev netA1 : FVec Ideal S100000x64 .f32 :=
  Cert.Spec.sage (segA (gatherP x1 x21) x20) (netA0 x0 x2 x3) (cntA (F := Ideal) x20) x7 x8 x9
/-- The second paper layer and the output head. -/
abbrev netOut : FVec Ideal S300000x1 .f32 :=
  Cert.Spec.head (segP (gatherA (netA1 x0 x1 x2 x3 x7 x8 x9 x20 x21) x20) x21) (netP1 x0 x1 x2 x3 x4 x5 x6 x20 x21) (cntP (F := Ideal) x21)
    x10 x11 x12 x16 x17 x18 x19

end Network

/-! ## The run's boundaries at the ideal instance -/

section AtIdeal

variable (mI : (ℓ : Loc nD τ sig) → Buf (Elt Ideal) ℓ)
variable (hsrc : ∀ (c : Dev nD) e, 0 ≤ ((mI ((c : Thread nD τ).loc main_arg20) : IVec S1000000 32) e).toInt
    ∧ ((mI ((c : Thread nD τ).loc main_arg20) : IVec S1000000 32) e).toInt ≤ (99999#32 : BitVec 32).toInt)
variable (hdst : ∀ (c : Dev nD) e, 0 ≤ ((mI ((c : Thread nD τ).loc main_arg21) : IVec S1000000 32) e).toInt
    ∧ ((mI ((c : Thread nD τ).loc main_arg21) : IVec S1000000 32) e).toInt ≤ (299999#32 : BitVec 32).toInt)

theorem W6_a0 (c : Dev nD) : W6 mI ρ c (Proc.devRef .tc main_v11) = netA0 (mI ((c : Thread nD τ).loc main_arg0)) (mI ((c : Thread nD τ).loc main_arg2)) (mI ((c : Thread nD τ).loc main_arg3)) := by
  refine (W6_arr mI ρ c 3).trans ((Cert.KernelIdeal.Region0.value (V5 mI ρ) c).trans ?_)
  show Cert.Spec.affine (W5 mI ρ c (Proc.devRef .tc main_arg0)) (W5 mI ρ c (Proc.devRef .tc main_arg2)) (W5 mI ρ c (Proc.devRef .tc main_arg3)) = _
  rw [W5_args mI ρ c main_arg0 (by decide), W5_args mI ρ c main_arg2 (by decide), W5_args mI ρ c main_arg3 (by decide)]

include hsrc in
theorem W8_aggP1 (c : Dev nD) : W8 mI ρ c (Proc.devRef .tc main_v15)
    = segP (gatherA (netA0 (mI ((c : Thread nD τ).loc main_arg0)) (mI ((c : Thread nD τ).loc main_arg2)) (mI ((c : Thread nD τ).loc main_arg3))) (mI ((c : Thread nD τ).loc main_arg20))) (mI ((c : Thread nD τ).loc main_arg21)) := by
  rw [W8_agg, W6_a0, W6_args mI ρ c main_arg20 (by decide), W6_args mI ρ c main_arg21 (by decide), takeA_eq _ _ (hsrc c)]

include hsrc in
theorem W9_p1 (c : Dev nD) : W9 mI ρ c (Proc.devRef .tc main_v16)
    = netP1 (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg20)) (mI ((c : Thread nD τ).loc main_arg21)) := by
  refine (W9_arr mI ρ c 6).trans ((Cert.KernelIdeal.Region1.value (V8 mI ρ) c).trans ?_)
  show Cert.Spec.sage (W8 mI ρ c (Proc.devRef .tc main_v15)) (W8 mI ρ c (Proc.devRef .tc main_arg1)) (W8 mI ρ c (Proc.devRef .tc main_v5))
    (W8 mI ρ c (Proc.devRef .tc main_arg4)) (W8 mI ρ c (Proc.devRef .tc main_arg5)) (W8 mI ρ c (Proc.devRef .tc main_arg6)) = _
  rw [W8_aggP1 ρ mI hsrc, W8_cntP, W8_args mI ρ c main_arg1 (by decide), W8_args mI ρ c main_arg4 (by decide),
    W8_args mI ρ c main_arg5 (by decide), W8_args mI ρ c main_arg6 (by decide)]

include hdst in
theorem W11_aggA1 (c : Dev nD) : W11 mI ρ c (Proc.devRef .tc main_v20) = segA (F := Ideal) (gatherP (mI ((c : Thread nD τ).loc main_arg1)) (mI ((c : Thread nD τ).loc main_arg21))) (mI ((c : Thread nD τ).loc main_arg20)) := by
  rw [W11_agg, W9_args mI ρ c main_arg1 (by decide), W9_args mI ρ c main_arg21 (by decide), W9_args mI ρ c main_arg20 (by decide),
    takeP_eq _ _ (hdst c)]

include hdst in
theorem W12_a1 (c : Dev nD) : W12 mI ρ c (Proc.devRef .tc main_v21)
    = netA1 (mI ((c : Thread nD τ).loc main_arg0)) (mI ((c : Thread nD τ).loc main_arg1)) (mI ((c : Thread nD τ).loc main_arg2)) (mI ((c : Thread nD τ).loc main_arg3)) (mI ((c : Thread nD τ).loc main_arg7)) (mI ((c : Thread nD τ).loc main_arg8)) (mI ((c : Thread nD τ).loc main_arg9)) (mI ((c : Thread nD τ).loc main_arg20)) (mI ((c : Thread nD τ).loc main_arg21)) := by
  refine (W12_arr mI ρ c 6).trans ((Cert.KernelIdeal.Region2.value (V11 mI ρ) c).trans ?_)
  show Cert.Spec.sage (W11 mI ρ c (Proc.devRef .tc main_v20)) (W11 mI ρ c (Proc.devRef .tc main_v11)) (W11 mI ρ c (Proc.devRef .tc main_v10))
    (W11 mI ρ c (Proc.devRef .tc main_arg7)) (W11 mI ρ c (Proc.devRef .tc main_arg8)) (W11 mI ρ c (Proc.devRef .tc main_arg9)) = _
  rw [W11_aggA1 ρ mI hdst, W11_v11, W6_a0, W11_cntA, W11_args mI ρ c main_arg7 (by decide), W11_args mI ρ c main_arg8 (by decide),
    W11_args mI ρ c main_arg9 (by decide)]

include hsrc hdst in
theorem W14_aggP2 (c : Dev nD) : W14 mI ρ c (Proc.devRef .tc main_v25)
    = segP (gatherA (netA1 (mI ((c : Thread nD τ).loc main_arg0)) (mI ((c : Thread nD τ).loc main_arg1)) (mI ((c : Thread nD τ).loc main_arg2)) (mI ((c : Thread nD τ).loc main_arg3)) (mI ((c : Thread nD τ).loc main_arg7)) (mI ((c : Thread nD τ).loc main_arg8)) (mI ((c : Thread nD τ).loc main_arg9)) (mI ((c : Thread nD τ).loc main_arg20)) (mI ((c : Thread nD τ).loc main_arg21))) (mI ((c : Thread nD τ).loc main_arg20))) (mI ((c : Thread nD τ).loc main_arg21)) := by
  rw [W14_agg, W12_a1 ρ mI hdst, W12_args mI ρ c main_arg20 (by decide), W12_args mI ρ c main_arg21 (by decide), takeA_eq _ _ (hsrc c)]

include hsrc hdst in
/-- The result array after the run is the network of the argument arrays. -/
theorem result (c : Dev nD) : W15 mI ρ c (Proc.devRef .tc main_v26)
    = netOut (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) (mI ((c : Thread nD τ).loc main_arg8)) (mI ((c : Thread nD τ).loc main_arg9)) (mI ((c : Thread nD τ).loc main_arg10)) (mI ((c : Thread nD τ).loc main_arg11)) (mI ((c : Thread nD τ).loc main_arg12)) (mI ((c : Thread nD τ).loc main_arg16)) (mI ((c : Thread nD τ).loc main_arg17)) (mI ((c : Thread nD τ).loc main_arg18)) (mI ((c : Thread nD τ).loc main_arg19)) (mI ((c : Thread nD τ).loc main_arg20)) (mI ((c : Thread nD τ).loc main_arg21)) := by
  refine (W15_arr mI ρ c 10).trans ((Cert.KernelIdeal.Region3.value (V14 mI ρ) c).trans ?_)
  show Cert.Spec.head (W14 mI ρ c (Proc.devRef .tc main_v25)) (W14 mI ρ c (Proc.devRef .tc main_v16)) (W14 mI ρ c (Proc.devRef .tc main_v5))
    (W14 mI ρ c (Proc.devRef .tc main_arg10)) (W14 mI ρ c (Proc.devRef .tc main_arg11)) (W14 mI ρ c (Proc.devRef .tc main_arg12))
    (W14 mI ρ c (Proc.devRef .tc main_arg16)) (W14 mI ρ c (Proc.devRef .tc main_arg17)) (W14 mI ρ c (Proc.devRef .tc main_arg18))
    (W14 mI ρ c (Proc.devRef .tc main_arg19)) = _
  rw [W14_aggP2 ρ mI hsrc hdst, W14_v16, W9_p1 ρ mI hsrc, W14_cntP, W14_args mI ρ c main_arg10 (by decide), W14_args mI ρ c main_arg11 (by decide),
    W14_args mI ρ c main_arg12 (by decide), W14_args mI ρ c main_arg16 (by decide), W14_args mI ρ c main_arg17 (by decide),
    W14_args mI ρ c main_arg18 (by decide), W14_args mI ρ c main_arg19 (by decide)]

end AtIdeal

end Cert.KernelIdeal.Chain
end
-- ==== Proof.RefStages.lean ====
/-
  The four dense stages of the reference network, each read as the whole-array function of its operands.

  Every dense stage is a composition of row-by-column contractions, bias rows repeated down the rows, a pointwise
  quotient by the neighbour count (a column repeated across the columns), pointwise sums, and a pointwise maximum
  with the zero array.  Reading each at an index `i = (r, q)` gives exactly the row formula of the corresponding
  stage: the composed index maps of the repetitions and contractions are the coordinate constructors
  `(r, k)`, `(k, q)`, `(r, 0)` and `(q)`.  The neighbour sums stay opaque on both sides.
-/
import proofs.«419581_j87247965651651_3_alg».proof.Proof.Gen.ReferenceIdeal.Read
import proofs.«419581_j87247965651651_3_alg».proof.Proof.Spec

noncomputable section
open Idealize.ShloMosaic Idealize.ShloMosaic.ValueIdx Cert.ReferenceIdeal Cert.ReferenceIdeal.Read
open scoped BigOperators

namespace Cert.ReferenceIdeal.Stages

/-- Two maps into a rank-2 index set agree when both coordinates agree. -/
local macro "idx2" : tactic => `(tactic| (funext a; match a with | ⟨0, _⟩ => rfl | ⟨1, _⟩ => rfl))
/-- Two maps into a rank-1 index set agree when the coordinate agrees. -/
local macro "idx1" : tactic => `(tactic| (funext a; match a with | ⟨0, _⟩ => rfl))

variable (x0 : FVec Ideal S100000x128 .f32) (x1 : FVec Ideal S300000x64 .f32) (x2 : FVec Ideal S128x64 .f32) (x3 : FVec Ideal S64 .f32)
  (x4 : FVec Ideal S64x64 .f32) (x5 : FVec Ideal S64 .f32) (x6 x7 : FVec Ideal S64x64 .f32) (x8 : FVec Ideal S64 .f32) (x9 x10 : FVec Ideal S64x64 .f32)
  (x11 : FVec Ideal S64 .f32) (x12 x16 : FVec Ideal S64x64 .f32) (x17 : FVec Ideal S64 .f32) (x18 : FVec Ideal S64x1 .f32) (x19 : FVec Ideal S1 .f32)
  (x20 x21 : IVec S1000000 32)

/-- The reference's author projection. -/
theorem a0_eq : val_main_v14 (F := Ideal) x0 x2 x3 = Cert.Spec.affine x0 x2 x3 := by
  funext i
  have e1 : ∀ k, lidx_main_v11 i k = ix2 (i 0) k := fun k => by idx2
  have e2 : ∀ k, ridx_main_v11 i k = ix2 k (i 1) := fun k => by idx2
  have e3 : idx_main_v12 (idx_main_v13 i) = ix1 (i 1) := by idx1
  rw [val_main_v14_apply, val_main_v11_apply, val_main_v13_apply, val_main_v12_apply, Ideal.addf_def, e3]
  simp only [e1, e2]
  rfl

/-- The reference's first paper layer. -/
theorem p1_eq : val_main_v33 (F := Ideal) x0 x1 x2 x3 x4 x5 x6 x20 x21
    = Cert.Spec.sage (val_main_v24 (F := Ideal) x0 x2 x3 x20 x21) x1 (val_main_v5 (F := Ideal) x21) x4 x5 x6 := by
  funext i
  have e1 : ∀ k, lidx_main_v27 i k = ix2 (i 0) k := fun k => by idx2
  have e2 : ∀ k, ridx_main_v27 i k = ix2 k (i 1) := fun k => by idx2
  have e3 : ∀ k, idx_main_v25 (lidx_main_v27 i k) = ix2 (i 0) 0 := fun k => by idx2
  have e4 : idx_main_v28 (idx_main_v29 i) = ix1 (i 1) := by idx1
  have e5 : ∀ k, lidx_main_v31 i k = ix2 (i 0) k := fun k => by idx2
  have e6 : ∀ k, ridx_main_v31 i k = ix2 k (i 1) := fun k => by idx2
  -- the mean of the neighbour rows, entry (r, k)
  have hk : ∀ k, val_main_v26 (F := Ideal) x0 x2 x3 x20 x21 (lidx_main_v27 i k)
      = Ideal.div (val_main_v24 (F := Ideal) x0 x2 x3 x20 x21 (ix2 (i 0) k)) (val_main_v5 (F := Ideal) x21 (ix2 (i 0) 0)) := fun k => by
    rw [val_main_v26_apply, val_main_v25_apply, e3 k, e1 k]
    rfl
  -- the two contractions, term by term
  have hs1 : (∑ k : Fin 64, val_main_v26 (F := Ideal) x0 x2 x3 x20 x21 (lidx_main_v27 i k) * x4 (ridx_main_v27 i k))
      = ∑ k : Fin 64, Ideal.div (val_main_v24 (F := Ideal) x0 x2 x3 x20 x21 (ix2 (i 0) k)) (val_main_v5 (F := Ideal) x21 (ix2 (i 0) 0)) * x4 (ix2 k (i 1)) :=
    Finset.sum_congr rfl fun k _ => by rw [hk k, e2 k]; rfl
  have hs2 : (∑ k : Fin 64, x1 (lidx_main_v31 i k) * x6 (ridx_main_v31 i k))
      = ∑ k : Fin 64, x1 (ix2 (i 0) k) * x6 (ix2 k (i 1)) :=
    Finset.sum_congr rfl fun k _ => by rw [e5 k, e6 k]; rfl
  rw [val_main_v33_apply, val_main_v32_apply, val_main_v30_apply, val_main_v27_apply, val_main_v29_apply,
    val_main_v28_apply, val_main_v31_apply, val_main_call2_v0_apply, val_main_call2_cst_apply, e4, hs1, hs2]
  rfl

/-- The reference's first author layer. -/
theorem a1_eq : val_main_v52 (F := Ideal) x0 x1 x2 x3 x7 x8 x9 x20 x21
    = Cert.Spec.sage (val_main_v43 (F := Ideal) x1 x20 x21) (val_main_v14 (F := Ideal) x0 x2 x3) (val_main_v10 (F := Ideal) x20) x7 x8 x9 := by
  funext i
  have e1 : ∀ k, lidx_main_v46 i k = ix2 (i 0) k := fun k => by idx2
  have e2 : ∀ k, ridx_main_v46 i k = ix2 k (i 1) := fun k => by idx2
  have e3 : ∀ k, idx_main_v44 (lidx_main_v46 i k) = ix2 (i 0) 0 := fun k => by idx2
  have e4 : idx_main_v47 (idx_main_v48 i) = ix1 (i 1) := by idx1
  have e5 : ∀ k, lidx_main_v50 i k = ix2 (i 0) k := fun k => by idx2
  have e6 : ∀ k, ridx_main_v50 i k = ix2 k (i 1) := fun k => by idx2
  -- the mean of the neighbour rows, entry (r, k)
  have hk : ∀ k, val_main_v45 (F := Ideal) x1 x20 x21 (lidx_main_v46 i k)
      = Ideal.div (val_main_v43 (F := Ideal) x1 x20 x21 (ix2 (i 0) k)) (val_main_v10 (F := Ideal) x20 (ix2 (i 0) 0)) := fun k => by
    rw [val_main_v45_apply, val_main_v44_apply, e3 k, e1 k]
    rfl
  -- the two contractions, term by term
  have hs1 : (∑ k : Fin 64, val_main_v45 (F := Ideal) x1 x20 x21 (lidx_main_v46 i k) * x7 (ridx_main_v46 i k))
      = ∑ k : Fin 64, Ideal.div (val_main_v43 (F := Ideal) x1 x20 x21 (ix2 (i 0) k)) (val_main_v10 (F := Ideal) x20 (ix2 (i 0) 0)) * x7 (ix2 k (i 1)) :=
    Finset.sum_congr rfl fun k _ => by rw [hk k, e2 k]; rfl
  have hs2 : (∑ k : Fin 64, val_main_v14 (F := Ideal) x0 x2 x3 (lidx_main_v50 i k) * x9 (ridx_main_v50 i k))
      = ∑ k : Fin 64, val_main_v14 (F := Ideal) x0 x2 x3 (ix2 (i 0) k) * x9 (ix2 k (i 1)) :=
    Finset.sum_congr rfl fun k _ => by rw [e5 k, e6 k]; rfl
  rw [val_main_v52_apply, val_main_v51_apply, val_main_v49_apply, val_main_v46_apply, val_main_v48_apply,
    val_main_v47_apply, val_main_v50_apply, val_main_call3_v0_apply, val_main_call3_cst_apply, e4, hs1, hs2]
  rfl

/-- The reference's second paper layer. -/
theorem p2_eq : val_main_v71 (F := Ideal) x0 x1 x2 x3 x4 x5 x6 x7 x8 x9 x10 x11 x12 x20 x21
    = Cert.Spec.sage (val_main_v62 (F := Ideal) x0 x1 x2 x3 x7 x8 x9 x20 x21) (val_main_v33 (F := Ideal) x0 x1 x2 x3 x4 x5 x6 x20 x21)
        (val_main_v5 (F := Ideal) x21) x10 x11 x12 := by
  funext i
  have e1 : ∀ k, lidx_main_v65 i k = ix2 (i 0) k := fun k => by idx2
  have e2 : ∀ k, ridx_main_v65 i k = ix2 k (i 1) := fun k => by idx2
  have e3 : ∀ k, idx_main_v63 (lidx_main_v65 i k) = ix2 (i 0) 0 := fun k => by idx2
  have e4 : idx_main_v66 (idx_main_v67 i) = ix1 (i 1) := by idx1
  have e5 : ∀ k, lidx_main_v69 i k = ix2 (i 0) k := fun k => by idx2
  have e6 : ∀ k, ridx_main_v69 i k = ix2 k (i 1) := fun k => by idx2
  -- the mean of the neighbour rows, entry (r, k)
  have hk : ∀ k, val_main_v64 (F := Ideal) x0 x1 x2 x3 x7 x8 x9 x20 x21 (lidx_main_v65 i k)
      = Ideal.div (val_main_v62 (F := Ideal) x0 x1 x2 x3 x7 x8 x9 x20 x21 (ix2 (i 0) k)) (val_main_v5 (F := Ideal) x21 (ix2 (i 0) 0)) := fun k => by
    rw [val_main_v64_apply, val_main_v63_apply, e3 k, e1 k]
    rfl
  -- the two contractions, term by term
  have hs1 : (∑ k : Fin 64, val_main_v64 (F := Ideal) x0 x1 x2 x3 x7 x8 x9 x20 x21 (lidx_main_v65 i k) * x10 (ridx_main_v65 i k))
      = ∑ k : Fin 64, Ideal.div (val_main_v62 (F := Ideal) x0 x1 x2 x3 x7 x8 x9 x20 x21 (ix2 (i 0) k)) (val_main_v5 (F := Ideal) x21 (ix2 (i 0) 0)) * x10 (ix2 k (i 1)) :=
    Finset.sum_congr rfl fun k _ => by rw [hk k, e2 k]; rfl
  have hs2 : (∑ k : Fin 64, val_main_v33 (F := Ideal) x0 x1 x2 x3 x4 x5 x6 x20 x21 (lidx_main_v69 i k) * x12 (ridx_main_v69 i k))
      = ∑ k : Fin 64, val_main_v33 (F := Ideal) x0 x1 x2 x3 x4 x5 x6 x20 x21 (ix2 (i 0) k) * x12 (ix2 k (i 1)) :=
    Finset.sum_congr rfl fun k _ => by rw [e5 k, e6 k]; rfl
  rw [val_main_v71_apply, val_main_v70_apply, val_main_v68_apply, val_main_v65_apply, val_main_v67_apply,
    val_main_v66_apply, val_main_v69_apply, val_main_call4_v0_apply, val_main_call4_cst_apply, e4, hs1, hs2]
  rfl

/-- The reference's hidden layer of the output head. -/
theorem hidden_eq : val_main_v76 (F := Ideal) x0 x1 x2 x3 x4 x5 x6 x7 x8 x9 x10 x11 x12 x16 x17 x20 x21
    = Cert.Spec.hidden (val_main_v71 (F := Ideal) x0 x1 x2 x3 x4 x5 x6 x7 x8 x9 x10 x11 x12 x20 x21) x16 x17 := by
  funext i
  have e1 : ∀ k, lidx_main_v72 i k = ix2 (i 0) k := fun k => by idx2
  have e2 : ∀ k, ridx_main_v72 i k = ix2 k (i 1) := fun k => by idx2
  have e4 : idx_main_v73 (idx_main_v74 i) = ix1 (i 1) := by idx1
  have hs : (∑ k : Fin 64, val_main_v71 (F := Ideal) x0 x1 x2 x3 x4 x5 x6 x7 x8 x9 x10 x11 x12 x20 x21 (lidx_main_v72 i k) * x16 (ridx_main_v72 i k))
      = ∑ k : Fin 64, val_main_v71 (F := Ideal) x0 x1 x2 x3 x4 x5 x6 x7 x8 x9 x10 x11 x12 x20 x21 (ix2 (i 0) k) * x16 (ix2 k (i 1)) :=
    Finset.sum_congr rfl fun k _ => by rw [e1 k, e2 k]; rfl
  rw [val_main_v76_apply, val_main_v75_apply, val_main_v72_apply, val_main_v74_apply, val_main_v73_apply,
    val_main_call5_v0_apply, val_main_call5_cst_apply, e4, hs]
  rfl

/-- The reference's final linear map. -/
theorem final_eq : val_main_v80 (F := Ideal) x0 x1 x2 x3 x4 x5 x6 x7 x8 x9 x10 x11 x12 x16 x17 x18 x19 x20 x21
    = Cert.Spec.affine (val_main_v76 (F := Ideal) x0 x1 x2 x3 x4 x5 x6 x7 x8 x9 x10 x11 x12 x16 x17 x20 x21) x18 x19 := by
  funext i
  have e1 : ∀ k, lidx_main_v77 i k = ix2 (i 0) k := fun k => by idx2
  have e2 : ∀ k, ridx_main_v77 i k = ix2 k (i 1) := fun k => by idx2
  -- the bias has one entry, so its only index is the output column
  have e4 : idx_main_v78 (idx_main_v79 i) = ix1 (i 1) := by
    funext a
    match a with
    | ⟨0, _⟩ => exact Fin.ext (by have h : (i 1).val < 1 := (i 1).isLt; show 0 = (i 1).val; omega)
  have hs : (∑ k : Fin 64, val_main_v76 (F := Ideal) x0 x1 x2 x3 x4 x5 x6 x7 x8 x9 x10 x11 x12 x16 x17 x20 x21 (lidx_main_v77 i k) * x18 (ridx_main_v77 i k))
      = ∑ k : Fin 64, val_main_v76 (F := Ideal) x0 x1 x2 x3 x4 x5 x6 x7 x8 x9 x10 x11 x12 x16 x17 x20 x21 (ix2 (i 0) k) * x18 (ix2 k (i 1)) :=
    Finset.sum_congr rfl fun k _ => by rw [e1 k, e2 k]; rfl
  rw [val_main_v80_apply, val_main_v77_apply, val_main_v79_apply, val_main_v78_apply, e4, hs]
  rfl

/-- The reference's second paper layer and output head. -/
theorem out_eq : val_main_v80 (F := Ideal) x0 x1 x2 x3 x4 x5 x6 x7 x8 x9 x10 x11 x12 x16 x17 x18 x19 x20 x21
    = Cert.Spec.head (val_main_v62 (F := Ideal) x0 x1 x2 x3 x7 x8 x9 x20 x21) (val_main_v33 (F := Ideal) x0 x1 x2 x3 x4 x5 x6 x20 x21)
        (val_main_v5 (F := Ideal) x21) x10 x11 x12 x16 x17 x18 x19 := by
  rw [final_eq, hidden_eq, p2_eq]
  rfl

end Cert.ReferenceIdeal.Stages
end
-- ==== Proof.Bridge.lean ====
/-
  The reference's gathers, segment sums and neighbour counts are the kernel program's, term for term: both programs apply
  the same host operations to the same operands (each program carries its own copy of the operations' dimension records,
  which are equal).  With the four dense stages read as the layers' functions, the reference's result is the same network
  of the argument arrays as the kernel program's.
-/
import proofs.«419581_j87247965651651_3_alg».proof.Proof.Chain
import proofs.«419581_j87247965651651_3_alg».proof.Proof.RefStages

noncomputable section

namespace Cert.Bridge

open Idealize.ShloMosaic Cert.ReferenceIdeal Cert.ReferenceIdeal.Read Cert.ReferenceIdeal.Stages
open Cert.KernelIdeal.Chain (cntP cntA segP segA gatherA gatherP netA0 netP1 netA1 netOut)

variable (x0 : FVec Ideal Cert.ReferenceIdeal.S100000x128 .f32) (x1 : FVec Ideal Cert.ReferenceIdeal.S300000x64 .f32) (x2 : FVec Ideal Cert.ReferenceIdeal.S128x64 .f32) (x3 : FVec Ideal Cert.ReferenceIdeal.S64 .f32)
    (x4 : FVec Ideal Cert.ReferenceIdeal.S64x64 .f32) (x5 : FVec Ideal Cert.ReferenceIdeal.S64 .f32) (x6 x7 : FVec Ideal Cert.ReferenceIdeal.S64x64 .f32) (x8 : FVec Ideal Cert.ReferenceIdeal.S64 .f32) (x9 x10 : FVec Ideal Cert.ReferenceIdeal.S64x64 .f32)
    (x11 : FVec Ideal Cert.ReferenceIdeal.S64 .f32) (x12 x16 : FVec Ideal Cert.ReferenceIdeal.S64x64 .f32) (x17 : FVec Ideal Cert.ReferenceIdeal.S64 .f32) (x18 : FVec Ideal Cert.ReferenceIdeal.S64x1 .f32) (x19 : FVec Ideal Cert.ReferenceIdeal.S1 .f32)
    (x20 x21 : IVec Cert.ReferenceIdeal.S1000000 32)

/-- The papers' neighbour counts. -/
theorem cntP_eq : val_main_v5 (F := Ideal) x21 = cntP (F := Ideal) x21 := rfl
/-- The authors' neighbour counts. -/
theorem cntA_eq : val_main_v10 (F := Ideal) x20 = cntA (F := Ideal) x20 := rfl
/-- The first paper layer's gathered and summed author rows. -/
theorem aggP1_eq : val_main_v24 (F := Ideal) x0 x2 x3 x20 x21 = segP (F := Ideal) (gatherA (val_main_v14 (F := Ideal) x0 x2 x3) x20) x21 := rfl
/-- The first author layer's gathered and summed paper rows. -/
theorem aggA1_eq : val_main_v43 (F := Ideal) x1 x20 x21 = segA (gatherP x1 x21) x20 := rfl
/-- The second paper layer's gathered and summed author rows. -/
theorem aggP2_eq : val_main_v62 (F := Ideal) x0 x1 x2 x3 x7 x8 x9 x20 x21
    = segP (F := Ideal) (gatherA (val_main_v52 (F := Ideal) x0 x1 x2 x3 x7 x8 x9 x20 x21) x20) x21 := rfl

/-- The reference's result is the network of the argument arrays. -/
theorem ref_out : val_main_v80 (F := Ideal) x0 x1 x2 x3 x4 x5 x6 x7 x8 x9 x10 x11 x12 x16 x17 x18 x19 x20 x21
    = netOut x0 x1 x2 x3 x4 x5 x6 x7 x8 x9 x10 x11 x12 x16 x17 x18 x19 x20 x21 := by
  rw [out_eq, aggP2_eq, a1_eq, aggA1_eq, p1_eq, aggP1_eq, a0_eq, cntP_eq, cntA_eq]

/-- The same, from arrays that agree with the ones the network is stated at. -/
theorem ref_out_of_agree (y0 : FVec Ideal Cert.ReferenceIdeal.S100000x128 .f32) (y1 : FVec Ideal Cert.ReferenceIdeal.S300000x64 .f32) (y2 : FVec Ideal Cert.ReferenceIdeal.S128x64 .f32) (y3 : FVec Ideal Cert.ReferenceIdeal.S64 .f32)
    (y4 : FVec Ideal Cert.ReferenceIdeal.S64x64 .f32) (y5 : FVec Ideal Cert.ReferenceIdeal.S64 .f32) (y6 y7 : FVec Ideal Cert.ReferenceIdeal.S64x64 .f32) (y8 : FVec Ideal Cert.ReferenceIdeal.S64 .f32) (y9 y10 : FVec Ideal Cert.ReferenceIdeal.S64x64 .f32)
    (y11 : FVec Ideal Cert.ReferenceIdeal.S64 .f32) (y12 y16 : FVec Ideal Cert.ReferenceIdeal.S64x64 .f32) (y17 : FVec Ideal Cert.ReferenceIdeal.S64 .f32) (y18 : FVec Ideal Cert.ReferenceIdeal.S64x1 .f32) (y19 : FVec Ideal Cert.ReferenceIdeal.S1 .f32)
    (y20 y21 : IVec Cert.ReferenceIdeal.S1000000 32)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h16 : x16 = y16) (h17 : x17 = y17) (h18 : x18 = y18) (h19 : x19 = y19) (h20 : x20 = y20) (h21 : x21 = y21) :
    val_main_v80 (F := Ideal) x0 x1 x2 x3 x4 x5 x6 x7 x8 x9 x10 x11 x12 x16 x17 x18 x19 x20 x21
    = netOut y0 y1 y2 y3 y4 y5 y6 y7 y8 y9 y10 y11 y12 y16 y17 y18 y19 y20 y21 := by
  subst h0 h1 h2 h3 h4 h5 h6 h7 h8 h9 h10 h11 h12 h16 h17 h18 h19 h20 h21
  exact ref_out _ _ _ _ _ _ _ _ _ _ _ _ _ _ _ _ _ _ _

end Cert.Bridge

end
-- ==== Proof.lean ====
/-
  The certificate of the bipartite message-passing network: the kernel program (an author projection, two mean-aggregation
  layers and the output head as four kernel regions, the edge gathers and segment sums between them as host operations)
  against the reference that computes the same network with host operations alone.

  The three frames: the two kernel programs' are the generated launch proofs; the reference's is its generated run with
  the result dropped.  Nothing was rewritten when the kernel was idealized, so that conjunct is trivial.

  The value claim holds where every edge's source is an author id and its destination a paper id, which the precondition
  states: there the kernel program's filled row gathers never fill and are the reference's plain gathers.  Each kernel
  region computes its dense layer row by row on blocks of rows that tile the array; the reference's matrix products are
  the same sums.  Both results are then one function, `netOut`, of the argument arrays.
-/
import proofs.«419581_j87247965651651_3_alg».proof.Defs
import proofs.«419581_j87247965651651_3_alg».proof.Proof.Gen.Kernel
import proofs.«419581_j87247965651651_3_alg».proof.Proof.Gen.Kernel.Frame
import proofs.«419581_j87247965651651_3_alg».proof.Proof.Gen.KernelIdeal
import proofs.«419581_j87247965651651_3_alg».proof.Proof.Gen.KernelIdeal.Frame
import proofs.«419581_j87247965651651_3_alg».proof.Proof.Gen.ReferenceIdeal
import proofs.«419581_j87247965651651_3_alg».proof.Proof.Gen.Pre_finite_inputs
import proofs.«419581_j87247965651651_3_alg».proof.Proof.Gen.ReferenceIdeal.Run
import proofs.«419581_j87247965651651_3_alg».proof.Proof.Gen.ReferenceIdeal.Read
import proofs.«419581_j87247965651651_3_alg».proof.Proof.KernelRun
import proofs.«419581_j87247965651651_3_alg».proof.Proof.PreFacts
import proofs.«419581_j87247965651651_3_alg».proof.Proof.Chain
import proofs.«419581_j87247965651651_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the network of the argument arrays. -/
theorem algebraic : Cert.algebraic_KernelIdeal_ReferenceIdeal := by
  intro m ρ m' ρ' hpre hagree
  have hr := fun c : Dev Cert.KernelIdeal.nD =>
    Cert.PreFacts.ranges (F := Ideal) _ _ _ _ _ _ _ _ _ _ _ _ _ _ _ _ _ _ _ _ _ _ (hpre c)
  refine ⟨fun c => Cert.KernelIdeal.Chain.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Chain.result ρ m (fun c => (hr c).1) (fun c => (hr c).2) c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    exact (Cert.ReferenceIdeal.Read.val_main_v80_eq m' c).trans
      (Cert.Bridge.ref_out_of_agree _ _ _ _ _ _ _ _ _ _ _ _ _ _ _ _ _ _ _ _ _ _ _ _ _ _ _ _ _ _ _ _ _ _ _ _ _ _
        e0 e1 e2 e3 e4 e5 e6 e7 e8 e9 e10 e11 e12 e16 e17 e18 e19 e20 e21)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
